-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S1024x4096 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S4096x1024 .f32) (main_arg3 : FVec F S4096 .f32) (main_arg4 : FVec F S4096x4096 .f32) (main_arg5 : FVec F S4096 .f32) (main_arg6 : FVec F S1024x4096 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S8192x1 : Shape := ⟨2, ![8192, 1]⟩
abbrev S128x1024 : Shape := ⟨2, ![128, 1024]⟩
abbrev S128x1 : Shape := ⟨2, ![128, 1]⟩
abbrev S3 : Shape := ⟨1, ![3]⟩
abbrev S1 : Shape := ⟨1, ![1]⟩
abbrev S_ : Shape := ⟨0, ![]⟩
abbrev S128x4096 : Shape := ⟨2, ![128, 4096]⟩
abbrev S1x4096 : Shape := ⟨2, ![1, 4096]⟩
abbrev S1x1024 : Shape := ⟨2, ![1, 1024]⟩
abbrev S128 : Shape := ⟨1, ![128]⟩
abbrev S8192x1x1 : Shape := ⟨3, ![8192, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4096x1024, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S1024x4096, .f32⟩
  | .hbm, ⟨7, _⟩ => ⟨S1024, .f32⟩
  | .hbm, ⟨8, _⟩ => ⟨S4096x1024, .bf16⟩
  | .hbm, ⟨9, _⟩ => ⟨S4096x4096, .bf16⟩
  | .hbm, ⟨10, _⟩ => ⟨S1024x4096, .bf16⟩
  | .hbm, ⟨11, _⟩ => ⟨S8192x1024, .f32⟩
  | .hbm, ⟨12, _⟩ => ⟨S8192x1, .f32⟩
  | .hbm, ⟨13, _⟩ => ⟨S8192x1x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S4096, .f32⟩
  | .local _ .vmem, ⟨5, _⟩ => ⟨S4096, .f32⟩
  | .local _ .vmem, ⟨6, _⟩ => ⟨S1024, .f32⟩
  | .local _ .vmem, ⟨7, _⟩ => ⟨S128x1024, .f32⟩
  | .local _ .vmem, ⟨8, _⟩ => ⟨S128x1024, .f32⟩
  | .local _ .vmem, ⟨9, _⟩ => ⟨S128x1, .f32⟩
  | .local _ .vmem, ⟨10, _⟩ => ⟨S128x1, .f32⟩
  | .local _ .vmem, ⟨11, _⟩ => ⟨S4096x1024, .bf16⟩
  | .local _ .vmem, ⟨12, _⟩ => ⟨S4096x4096, .bf16⟩
  | .local _ .vmem, ⟨13, _⟩ => ⟨S1024x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  inb_S4096x4096_S4096x4096_0_0 : ∀ a, (![0, 0] : Fin 2 → Nat) a + S4096x4096.size a ≤ S4096x4096.size a
  h_S4096x4096 : 0 < S4096x4096.numel
  inb_S1024x4096_S1024x4096_0_0 : ∀ a, (![0, 0] : Fin 2 → Nat) a + S1024x4096.size a ≤ S1024x4096.size a
  h_S1024x4096 : 0 < S1024x4096.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  reduces_S128x1024_S128 : S128x1024.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S8192x1_S8192x1x1 : S8192x1.ShapeCasts S8192x1x1
  dot_S128x1024_S4096x1024_S128x4096_1_1_0_0_n_n_wf : DotDims.WF S128x1024 S4096x1024 S128x4096 [1] [1] [0] [0] [] []
  dot_S128x4096_S4096x4096_S128x4096_1_1_0_0_n_n_wf : DotDims.WF S128x4096 S4096x4096 S128x4096 [1] [1] [0] [0] [] []
  dot_S128x4096_S1024x4096_S128x1024_1_1_0_0_n_n_wf : DotDims.WF S128x4096 S1024x4096 S128x1024 [1] [1] [0] [0] [] []
  dot_S128x1024_S1024x4096_S128x4096_1_0_0_1_n_n_wf : DotDims.WF S128x1024 S1024x4096 S128x4096 [1] [0] [0] [1] [] []
  dot_S128x4096_S4096x4096_S128x4096_1_0_0_1_n_n_wf : DotDims.WF S128x4096 S4096x4096 S128x4096 [1] [0] [0] [1] [] []
  dot_S128x4096_S4096x1024_S128x1024_1_0_0_1_n_n_wf : DotDims.WF S128x4096 S4096x1024 S128x1024 [1] [0] [0] [1] [] []
  hcc0_scratch3 : 11 + S3.numel ≤ 14
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S4096.size a ≤ S4096.size a
  hwx0_2 : ∀ i : grid0.Coords, EltTy.bits .f32 = 32 ∨ (Rect.block (s := S4096) S4096.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_5 i = cc0_transform_5 i'
  hinb0_3 : ∀ (i : grid0.Coords) a, (cc0_transform_5 i a + 1) * S4096.size a ≤ S4096.size a
  hwx0_3 : ∀ i : grid0.Coords, EltTy.bits .f32 = 32 ∨ (Rect.block (s := S4096) S4096.size (cc0_transform_5 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_7 i = cc0_transform_7 i'
  hinb0_4 : ∀ (i : grid0.Coords) a, (cc0_transform_7 i a + 1) * S1024.size a ≤ S1024.size a
  hwx0_4 : ∀ i : grid0.Coords, EltTy.bits .f32 = 32 ∨ (Rect.block (s := S1024) S1024.size (cc0_transform_7 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_8 i = cc0_transform_8 i'
  hinb0_5 : ∀ (i : grid0.Coords) a, (cc0_transform_8 i a + 1) * S128x1024.size a ≤ S8192x1024.size a
  hwx0_5 : ∀ i : grid0.Coords, EltTy.bits .f32 = 32 ∨ (Rect.block (s := S8192x1024) S128x1024.size (cc0_transform_8 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_9 i = cc0_transform_9 i'
  hinb0_6 : ∀ (i : grid0.Coords) a, (cc0_transform_9 i a + 1) * S128x1.size a ≤ S8192x1.size a
  hwx0_6 : ∀ i : grid0.Coords, EltTy.bits .f32 = 32 ∨ (Rect.block (s := S8192x1) S128x1.size (cc0_transform_9 i) (hinb0_6 i)).WholeWords (EltTy.packing .f32)

variable [Facts₀]

abbrev cc0_scratch3 : DmaSems sig S3 := SemArray.consecutive 11 S3 hcc0_scratch3
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4096.size cc0_transform_5 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_7 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S128x1024.size cc0_transform_8 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S128x1.size cc0_transform_9 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S4096x4096 : Shape := ⟨2, ![4096, 4096]⟩
abbrev S1024x4096 : Shape := ⟨2, ![1024, 4096]⟩
abbrev S1024 : Shape := ⟨1, ![1024]⟩
abbrev S8192x4096 : Shape := ⟨2, ![8192, 4096]⟩
abbrev S1x4096 : Shape := ⟨2, ![1, 4096]⟩
abbrev S_ : Shape := ⟨0, ![]⟩
abbrev S1x1024 : Shape := ⟨2, ![1, 1024]⟩
abbrev S8192x1 : Shape := ⟨2, ![8192, 1]⟩
abbrev S8192 : Shape := ⟨1, ![8192]⟩
abbrev S8192x1x1 : Shape := ⟨3, ![8192, 1, 1]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S8192x1024, .f32⟩
  | 2 => ⟨S4096x1024, .f32⟩
  | 3 => ⟨S4096, .f32⟩
  | 4 => ⟨S4096x4096, .f32⟩
  | 5 => ⟨S4096, .f32⟩
  | 6 => ⟨S1024x4096, .f32⟩
  | 7 => ⟨S1024, .f32⟩
  | 8 => ⟨S1024x4096, .f32⟩
  | 9 => ⟨S8192x4096, .f32⟩
  | 10 => ⟨S1x4096, .f32⟩
  | 11 => ⟨S8192x4096, .f32⟩
  | 12 => ⟨S8192x4096, .f32⟩
  | 13 => ⟨S_, .f32⟩
  | 14 => ⟨S8192x4096, .f32⟩
  | 15 => ⟨S8192x4096, .f32⟩
  | 16 => ⟨S_, .f32⟩
  | 17 => ⟨S8192x4096, .f32⟩
  | 18 => ⟨S8192x4096, .i1⟩
  | 19 => ⟨S_, .f32⟩
  | 20 => ⟨S8192x4096, .f32⟩
  | 21 => ⟨S4096x4096, .f32⟩
  | 22 => ⟨S8192x4096, .f32⟩
  | 23 => ⟨S1x4096, .f32⟩
  | 24 => ⟨S8192x4096, .f32⟩
  | 25 => ⟨S8192x4096, .f32⟩
  | 26 => ⟨S_, .f32⟩
  | 27 => ⟨S8192x4096, .f32⟩
  | 28 => ⟨S8192x4096, .f32⟩
  | 29 => ⟨S_, .f32⟩
  | 30 => ⟨S8192x4096, .f32⟩
  | 31 => ⟨S8192x4096, .i1⟩
  | 32 => ⟨S_, .f32⟩
  | 33 => ⟨S8192x4096, .f32⟩
  | 34 => ⟨S4096x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S_, .f32⟩
  | 41 => ⟨S8192x1, .f32⟩
  | 42 => ⟨S8192x4096, .f32⟩
  | 43 => ⟨S_, .f32⟩
  | 44 => ⟨S8192x4096, .f32⟩
  | 45 => ⟨S8192x4096, .f32⟩
  | 46 => ⟨S8192x4096, .f32⟩
  | 47 => ⟨S_, .f32⟩
  | 48 => ⟨S8192x4096, .f32⟩
  | 49 => ⟨S8192x4096, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x4096, .f32⟩
  | 60 => ⟨S_, .f32⟩
  | 61 => ⟨S8192x4096, .f32⟩
  | 62 => ⟨S8192x4096, .f32⟩
  | 63 => ⟨S8192x4096, .f32⟩
  | 64 => ⟨S_, .f32⟩
  | 65 => ⟨S8192x4096, .f32⟩
  | 66 => ⟨S8192x4096, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x4096, .f32⟩
  | 77 => ⟨S_, .f32⟩
  | 78 => ⟨S8192x4096, .f32⟩
  | 79 => ⟨S8192x4096, .f32⟩
  | 80 => ⟨S8192x4096, .f32⟩
  | 81 => ⟨S_, .f32⟩
  | 82 => ⟨S8192x4096, .f32⟩
  | 83 => ⟨S8192x4096, .f32⟩
  | 84 => ⟨S8192x1024, .f32⟩
  | 85 => ⟨S8192x1024, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S8192x1, .f32⟩
  | 93 => ⟨S8192x4096, .f32⟩
  | 94 => ⟨S_, .f32⟩
  | 95 => ⟨S8192x4096, .f32⟩
  | 96 => ⟨S8192x4096, .f32⟩
  | 97 => ⟨S8192x4096, .f32⟩
  | 98 => ⟨S_, .f32⟩
  | 99 => ⟨S8192x4096, .f32⟩
  | 100 => ⟨S8192x4096, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x4096, .f32⟩
  | 111 => ⟨S_, .f32⟩
  | 112 => ⟨S8192x4096, .f32⟩
  | 113 => ⟨S8192x4096, .f32⟩
  | 114 => ⟨S8192x4096, .f32⟩
  | 115 => ⟨S_, .f32⟩
  | 116 => ⟨S8192x4096, .f32⟩
  | 117 => ⟨S8192x4096, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x1, .f32⟩
  | 127 => ⟨S8192x4096, .f32⟩
  | _ => ⟨S8192x1024, .f32⟩

abbrev hbmTy0_1 (i : Nat) : BufTy := match i % 128 with
  | 0 => ⟨S_, .f32⟩
  | 1 => ⟨S8192x4096, .f32⟩
  | 2 => ⟨S8192x4096, .f32⟩
  | 3 => ⟨S8192x4096, .f32⟩
  | 4 => ⟨S_, .f32⟩
  | 5 => ⟨S8192x4096, .f32⟩
  | 6 => ⟨S8192x4096, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x4096, .f32⟩
  | 17 => ⟨S_, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x4096, .f32⟩
  | 34 => ⟨S_, .f32⟩
  | 35 => ⟨S8192x4096, .f32⟩
  | 36 => ⟨S8192x4096, .f32⟩
  | 37 => ⟨S8192x4096, .f32⟩
  | 38 => ⟨S_, .f32⟩
  | 39 => ⟨S8192x4096, .f32⟩
  | 40 => ⟨S8192x4096, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x4096, .f32⟩
  | 51 => ⟨S_, .f32⟩
  | 52 => ⟨S8192x4096, .f32⟩
  | 53 => ⟨S8192x4096, .f32⟩
  | 54 => ⟨S8192x4096, .f32⟩
  | 55 => ⟨S_, .f32⟩
  | 56 => ⟨S8192x4096, .f32⟩
  | 57 => ⟨S8192x4096, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x4096, .f32⟩
  | 68 => ⟨S_, .f32⟩
  | 69 => ⟨S8192x4096, .f32⟩
  | 70 => ⟨S8192x4096, .f32⟩
  | 71 => ⟨S8192x4096, .f32⟩
  | 72 => ⟨S_, .f32⟩
  | 73 => ⟨S8192x4096, .f32⟩
  | 74 => ⟨S8192x4096, .f32⟩
  | 75 => ⟨S8192x1024, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_cst : Ref sig .tc := ⟨.hbm, 26, rfl⟩
abbrev main_call1_v0 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_18 : Ref sig .tc := ⟨.hbm, 103, rfl⟩
abbrev main_v72 : Ref sig .tc := ⟨.hbm, 104, rfl⟩
abbrev main_v73 : Ref sig .tc := ⟨.hbm, 105, rfl⟩
abbrev main_cst_19 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_21 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_22 : Ref sig .tc := ⟨.hbm, 120, rfl⟩
abbrev main_v85 : Ref sig .tc := ⟨.hbm, 121, rfl⟩
abbrev main_v86 : Ref sig .tc := ⟨.hbm, 122, rfl⟩
abbrev main_cst_23 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_24 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_25 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_26 : Ref sig .tc := ⟨.hbm, 137, rfl⟩
abbrev main_v98 : Ref sig .tc := ⟨.hbm, 138, rfl⟩
abbrev main_v99 : Ref sig .tc := ⟨.hbm, 139, rfl⟩
abbrev main_cst_27 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_28 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_29 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_30 : Ref sig .tc := ⟨.hbm, 154, rfl⟩
abbrev main_v111 : Ref sig .tc := ⟨.hbm, 155, rfl⟩
abbrev main_v112 : Ref sig .tc := ⟨.hbm, 156, rfl⟩
abbrev main_cst_31 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_32 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_33 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_34 : Ref sig .tc := ⟨.hbm, 171, rfl⟩
abbrev main_v124 : Ref sig .tc := ⟨.hbm, 172, rfl⟩
abbrev main_v125 : Ref sig .tc := ⟨.hbm, 173, rfl⟩
abbrev main_cst_35 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_36 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_37 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_38 : Ref sig .tc := ⟨.hbm, 188, rfl⟩
abbrev main_v137 : Ref sig .tc := ⟨.hbm, 189, rfl⟩
abbrev main_v138 : Ref sig .tc := ⟨.hbm, 190, rfl⟩
abbrev main_cst_39 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_40 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_41 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_42 : Ref sig .tc := ⟨.hbm, 205, rfl⟩
abbrev main_v150 : Ref sig .tc := ⟨.hbm, 206, rfl⟩
abbrev main_v151 : Ref sig .tc := ⟨.hbm, 207, rfl⟩
abbrev main_cst_43 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S4096x4096_S4096x4096_1_0 : S4096x4096.Transposes [1, 0] S4096x4096
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1 : S_.BroadcastsInDim S8192x1 (![] : Fin 0 → Fin S8192x1.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  shapeCasts_S8192x1_S8192x1x1 : S8192x1.ShapeCasts S8192x1x1
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []
  dot_S8192x1024_S4096x1024_S8192x4096_1_1_0_0_n_n_wf : DotDims.WF S8192x1024 S4096x1024 S8192x4096 [1] [1] [0] [0] [] []
  dot_S8192x4096_S4096x4096_S8192x4096_1_1_0_0_n_n_wf : DotDims.WF S8192x4096 S4096x4096 S8192x4096 [1] [1] [0] [0] [] []
  dot_S8192x4096_S1024x4096_S8192x1024_1_1_0_0_n_n_wf : DotDims.WF S8192x4096 S1024x4096 S8192x1024 [1] [1] [0] [0] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf
def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf

class Facts : Prop extends Facts₀ where

variable [Facts]
-- ==== Proof.KernelBlock.lean ====
/-
  What one grid point stores into its two output blocks, each as ONE pure function of what the point loads:
  its rows of `x` and of the probe `u`, the three weight matrices (as the scratch holds them) and the biases.
  The output block is a single payload; the log-determinant column is the chain of payloads the ten
  series terms thread through (the gates of the two rectifiers, then each partial sum and covector in turn).
-/
import proofs.«115191_j35158602285651_1_alg».proof.Proof.Gen.KernelIdeal.Skeleton

noncomputable section

namespace Cert.KernelIdeal.Block

open Idealize.ShloMosaic Cert.KernelIdeal Cert.KernelIdeal.Gen

variable {F : FTy → Type} [FloatOps F]

/-- The block of `x + g(x)` a point stores: rows `xb` through the three layers. -/
def outBlock (xb : Vec F S128x1024 .f32) (w1 : Vec F S4096x1024 .bf16) (w2 : Vec F S4096x4096 .bf16)
    (w3 : Vec F S1024x4096 .bf16) (c1 c2 : Vec F S4096 .f32) (c3 : Vec F S1024 .f32) : FVec F S128x1024 .f32 :=
  k0_pay5 xb w1 w2 w3 c1 c2 c3

/-- The column of log-determinant estimates a point stores, for its rows `xb` with probe rows `ub`. -/
def logdetBlock (xb ub : Vec F S128x1024 .f32) (w1 : Vec F S4096x1024 .bf16) (w2 : Vec F S4096x4096 .bf16)
    (w3 : Vec F S1024x4096 .bf16) (c1 c2 : Vec F S4096 .f32) : FVec F S128x1 .f32 :=
  let g1 : IVec S128x4096 1 := k0_pay2 xb w1 c1
  let g2 : IVec S128x4096 1 := k0_pay4 xb w1 w2 c1 c2
  let z : FVec F S128x4096 .f32 := constant S128x4096 .f32 0x00000000#32
  let s2 : FVec F S128x1 .f32 := k0_pay8 ub w1 w2 w3 g1 g2
  let t3 : FVec F S128x4096 .bf16 := k0_pay9 ub w1 w2 w3 g1 g2
  let s4 : FVec F S128x1 .f32 := k0_pay12 ub w1 w2 w3 g1 g2 s2 t3 z
  let v4 : FVec F S128x1024 .f32 := k0_pay13 w1 w2 w3 g1 g2 t3 z
  let r5 : FVec F S128x1 .f32 := k0_pay14 ub w1 w2 w3 g1 g2 t3 z
  k0_pay19 ub w1 w2 w3 g1 g2 (k0_pay17 ub w1 w2 w3 g1 g2 s4 v4 r5) (k0_pay18 w1 w2 w3 g1 g2 v4)

end Cert.KernelIdeal.Block

end
-- ==== Proof.KernelPieces.lean ====
/-
  What each grid point leaves behind, read as values.

  The grid is 2 × 32 points, each owning 128 consecutive rows of the batch. At the first point of each
  row of the grid (linear position divisible by 32) the body first copies the three weight matrices from HBM
  into scratch and waits for all three copies; at every other point it finds them there. In both cases the
  point then stores ONE whole block into each output: the layer applied to its rows of `x`, and the column of
  log-determinant estimates for its rows of `x` and of the probe. This module says so: each case's stored
  contents are `Block.outBlock` and `Block.logdetBlock` of the point's loaded rows, of the biases, and of the
  weights — as HBM holds them where they were just copied, as the scratch held them otherwise — and the copy
  leaves exactly HBM's contents in the scratch.
-/
import proofs.«115191_j35158602285651_1_alg».proof.Proof.Gen.KernelIdeal.Frame
import proofs.«115191_j35158602285651_1_alg».proof.Proof.KernelBlock
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg2 : Memref sig .tc .vmem S128x1024 .f32) (harg2 : arg2.IsWhole) (arg3 : Memref sig .tc .vmem S128x1024 .f32) (harg3 : arg3.IsWhole) (arg5 : Memref sig .tc .vmem S4096 .f32) (harg5 : arg5.IsWhole) (arg7 : Memref sig .tc .vmem S4096 .f32) (harg7 : arg7.IsWhole) (arg9 : Memref sig .tc .vmem S1024 .f32) (harg9 : arg9.IsWhole) (arg10 : Memref sig .tc .vmem S128x1024 .f32) (harg10 : arg10.IsWhole) (arg11 : Memref sig .tc .vmem S128x1 .f32) (harg11 : arg11.IsWhole) (arg12 : Memref sig .tc .vmem S4096x1024 .bf16) (harg12 : arg12.IsWhole) (arg13 : Memref sig .tc .vmem S4096x4096 .bf16) (harg13 : arg13.IsWhole) (arg14 : Memref sig .tc .vmem S1024x4096 .bf16) (harg14 : arg14.IsWhole)
  (x0 : Vec F S128x1024 .f32) (x1 : Vec F S128x1024 .f32) (x2 : Vec F S4096 .f32) (x3 : Vec F S4096 .f32) (x4 : Vec F S1024 .f32) (fh0 : HbBuf0 (F := F) c hbM0_0) (fh1 : HbBuf0 (F := F) c hbM0_1) (fh2 : HbBuf0 (F := F) c hbM0_2)

/-- All offsets zero, for the two-axis blocks. -/
theorem off2_zero : (![0, 0] : Fin 2 → Nat) = fun _ => 0 := by
  funext a; match a with | ⟨0, _⟩ => rfl | ⟨1, _⟩ => rfl

/-- All offsets zero, for the bias vectors. -/
theorem off1_zero : (![0] : Fin 1 → Nat) = fun _ => 0 := by
  funext a; match a with | ⟨0, _⟩ => rfl

/-- A load of the whole buffer after ONE write of the whole buffer reads what was written (the weights, as the
    copy from HBM leaves them in scratch). -/
theorem readCov_whole_piece {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) :
    v.readCov [(⟨Rect.whole S, w⟩ : View.Piece (Elt F) S e)] (Rect.unit off S.size inb).toLoadRect = w := by
  subst h
  exact View.readCov_unit_zero v rfl _ w

/-- One write of the whole buffer leaves what was written. -/
theorem canon_whole_piece {S : Shape} {e : EltTy} (w : S.Idx → Elt F e) :
    View.canon [(⟨Rect.whole S, w⟩ : View.Piece (Elt F) S e)] = w :=
  View.canon_unit_zero rfl _ w

/-! ## The first point of a core's row of the grid: the weights are copied in, then used -/

section CaseA
variable (hc0 : cond0_0 i)

/-- The copy leaves `W1` (as HBM holds it) in its scratch. -/
theorem sout_A_0 : sout0_A_0 c i arg2 harg2 arg3 harg3 arg5 harg5 arg7 harg7 arg9 harg9 arg10 harg10 arg11 harg11 arg12 harg12 arg13 harg13 arg14 harg14 hc0 x0 x1 x2 x3 x4 fh0 fh1 fh2 = fh0 := by
  unfold sout0_A_0
  rw [View.read_writes_eq_canon _ _ _ (scover0_A_0 c i arg2 harg2 arg3 harg3 arg5 harg5 arg7 harg7 arg9 harg9 arg10 harg10 arg11 harg11 arg12 harg12 arg13 harg13 arg14 harg14 hc0 x0 x1 x2 x3 x4 fh0 fh1 fh2)]
  unfold kernelRun0_A
  dsimp only
  sl_unfold_words
  rw [canon_whole_piece]
  rfl

/-- The copy leaves `W2` in its scratch. -/
theorem sout_A_1 : sout0_A_1 c i arg2 harg2 arg3 harg3 arg5 harg5 arg7 harg7 arg9 harg9 arg10 harg10 arg11 harg11 arg12 harg12 arg13 harg13 arg14 harg14 hc0 x0 x1 x2 x3 x4 fh0 fh1 fh2 = fh1 := by
  unfold sout0_A_1
  rw [View.read_writes_eq_canon _ _ _ (scover0_A_1 c i arg2 harg2 arg3 harg3 arg5 harg5 arg7 harg7 arg9 harg9 arg10 harg10 arg11 harg11 arg12 harg12 arg13 harg13 arg14 harg14 hc0 x0 x1 x2 x3 x4 fh0 fh1 fh2)]
  unfold kernelRun0_A
  dsimp only
  sl_unfold_words
  rw [canon_whole_piece]
  rfl

/-- The copy leaves `W3` in its scratch. -/
theorem sout_A_2 : sout0_A_2 c i arg2 harg2 arg3 harg3 arg5 harg5 arg7 harg7 arg9 harg9 arg10 harg10 arg11 harg11 arg12 harg12 arg13 harg13 arg14 harg14 hc0 x0 x1 x2 x3 x4 fh0 fh1 fh2 = fh2 := by
  unfold sout0_A_2
  rw [View.read_writes_eq_canon _ _ _ (scover0_A_2 c i arg2 harg2 arg3 harg3 arg5 harg5 arg7 harg7 arg9 harg9 arg10 harg10 arg11 harg11 arg12 harg12 arg13 harg13 arg14 harg14 hc0 x0 x1 x2 x3 x4 fh0 fh1 fh2)]
  unfold kernelRun0_A
  dsimp only
  sl_unfold_words
  rw [canon_whole_piece]
  rfl

/-- The output block is the layer applied to the point's rows with the weights just copied in. -/
theorem out_A_5 : out0_A_5 c i arg2 harg2 arg3 harg3 arg5 harg5 arg7 harg7 arg9 harg9 arg10 harg10 arg11 harg11 arg12 harg12 arg13 harg13 arg14 harg14 hc0 x0 x1 x2 x3 x4 fh0 fh1 fh2 = Block.outBlock x0 fh0 fh1 fh2 x2 x3 x4 := by
  unfold out0_A_5
  rw [View.read_writes_eq_canon _ _ _ (cover0_A_5 c i arg2 harg2 arg3 harg3 arg5 harg5 arg7 harg7 arg9 harg9 arg10 harg10 arg11 harg11 arg12 harg12 arg13 harg13 arg14 harg14 hc0 x0 x1 x2 x3 x4 fh0 fh1 fh2)]
  unfold kernelRun0_A
  dsimp only
  sl_unfold_words
  rw [View.canon_unit_zero off2_zero]
  simp only [View.readAt_eq_ld, Memref.IsWhole.read_unread, View.ld_unit_zero (S := S128x1024) off2_zero,
    View.ld_unit_zero (S := S4096) off1_zero, View.ld_unit_zero (S := S1024) off1_zero,
    readCov_whole_piece (S := S4096x1024) _ off2_zero,
    readCov_whole_piece (S := S4096x4096) _ off2_zero, readCov_whole_piece (S := S1024x4096) _ off2_zero]
  rfl

/-- The log-determinant column likewise. -/
theorem out_A_6 : out0_A_6 c i arg2 harg2 arg3 harg3 arg5 harg5 arg7 harg7 arg9 harg9 arg10 harg10 arg11 harg11 arg12 harg12 arg13 harg13 arg14 harg14 hc0 x0 x1 x2 x3 x4 fh0 fh1 fh2 = Block.logdetBlock x0 x1 fh0 fh1 fh2 x2 x3 := by
  unfold out0_A_6
  rw [View.read_writes_eq_canon _ _ _ (cover0_A_6 c i arg2 harg2 arg3 harg3 arg5 harg5 arg7 harg7 arg9 harg9 arg10 harg10 arg11 harg11 arg12 harg12 arg13 harg13 arg14 harg14 hc0 x0 x1 x2 x3 x4 fh0 fh1 fh2)]
  unfold kernelRun0_A
  dsimp only
  sl_unfold_words
  rw [View.canon_unit_zero off2_zero]
  simp only [View.readAt_eq_ld, Memref.IsWhole.read_unread, View.ld_unit_zero (S := S128x1024) off2_zero,
    View.ld_unit_zero (S := S4096) off1_zero, View.ld_unit_zero (S := S1024) off1_zero,
    readCov_whole_piece (S := S4096x1024) _ off2_zero,
    readCov_whole_piece (S := S4096x4096) _ off2_zero, readCov_whole_piece (S := S1024x4096) _ off2_zero]
  rfl

end CaseA

/-! ## Every other point: nothing is copied, the scratch is read as the point before left it -/

section CaseB
variable (hc0 : ¬cond0_0 i) (xs0 : Vec F S4096x1024 .bf16) (xs1 : Vec F S4096x4096 .bf16) (xs2 : Vec F S1024x4096 .bf16)

/-- The output block is the layer applied to the point's rows with the weights the scratch holds. -/
theorem out_B_5 : out0_B_5 c i arg2 harg2 arg3 harg3 arg5 harg5 arg7 harg7 arg9 harg9 arg10 harg10 arg11 harg11 arg12 harg12 arg13 harg13 arg14 harg14 hc0 x0 x1 x2 x3 x4 xs0 xs1 xs2 fh0 fh1 fh2 = Block.outBlock x0 xs0 xs1 xs2 x2 x3 x4 := by
  unfold out0_B_5
  rw [View.read_writes_eq_canon _ _ _ (cover0_B_5 c i arg2 harg2 arg3 harg3 arg5 harg5 arg7 harg7 arg9 harg9 arg10 harg10 arg11 harg11 arg12 harg12 arg13 harg13 arg14 harg14 hc0 x0 x1 x2 x3 x4 xs0 xs1 xs2 fh0 fh1 fh2)]
  unfold kernelRun0_B
  dsimp only
  sl_unfold_words
  rw [View.canon_unit_zero off2_zero]
  simp only [View.readAt_eq_ld, Memref.IsWhole.read_unread, View.ld_unit_zero (S := S128x1024) off2_zero,
    View.ld_unit_zero (S := S4096) off1_zero, View.ld_unit_zero (S := S1024) off1_zero,
    View.ld_unit_zero (S := S4096x1024) off2_zero, View.ld_unit_zero (S := S4096x4096) off2_zero,
    View.ld_unit_zero (S := S1024x4096) off2_zero]
  rfl

/-- The log-determinant column likewise. -/
theorem out_B_6 : out0_B_6 c i arg2 harg2 arg3 harg3 arg5 harg5 arg7 harg7 arg9 harg9 arg10 harg10 arg11 harg11 arg12 harg12 arg13 harg13 arg14 harg14 hc0 x0 x1 x2 x3 x4 xs0 xs1 xs2 fh0 fh1 fh2 = Block.logdetBlock x0 x1 xs0 xs1 xs2 x2 x3 := by
  unfold out0_B_6
  rw [View.read_writes_eq_canon _ _ _ (cover0_B_6 c i arg2 harg2 arg3 harg3 arg5 harg5 arg7 harg7 arg9 harg9 arg10 harg10 arg11 harg11 arg12 harg12 arg13 harg13 arg14 harg14 hc0 x0 x1 x2 x3 x4 xs0 xs1 xs2 fh0 fh1 fh2)]
  unfold kernelRun0_B
  dsimp only
  sl_unfold_words
  rw [View.canon_unit_zero off2_zero]
  simp only [View.readAt_eq_ld, Memref.IsWhole.read_unread, View.ld_unit_zero (S := S128x1024) off2_zero,
    View.ld_unit_zero (S := S4096) off1_zero, View.ld_unit_zero (S := S1024) off1_zero,
    View.ld_unit_zero (S := S4096x1024) off2_zero, View.ld_unit_zero (S := S4096x4096) off2_zero,
    View.ld_unit_zero (S := S1024x4096) off2_zero]
  rfl

end CaseB

end Cert.KernelIdeal.Gen

end
-- ==== Proof.KernelPoints.lean ====
/-
  The weights stay put, and every point stores its own two blocks.

  The three scratch buffers are written only at the first point of each row of the grid, and what is written there
  is what HBM holds: the weight matrices in bf16. So by induction along the grid's linear order the scratch holds
  those same matrices after EVERY point, whichever case the point is. With that, what point `t` leaves in its
  output buffers is, in both cases, the layer and the log-determinant column of ITS rows of `x` and of the probe
  under those fixed weights.
-/
import proofs.«115191_j35158602285651_1_alg».proof.Proof.KernelPieces

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ)

/-- The scratch after position `k`, for any `k` that is the position `n` the induction has reached. -/
theorem scratch_after (c : Dev nD) : ∀ (n : ℕ) (hn : n < cfg0.N),
    (outsAt0 m c n hn).2.2
      = ((V m c main_v0 : Vec F S4096x1024 .bf16), (V m c main_v1 : Vec F S4096x4096 .bf16),
          (V m c main_v2 : Vec F S1024x4096 .bf16)) := by
  intro n
  induction n with
  | zero =>
    intro hn
    have e := outsAt0_A m c (⟨0, hn⟩ : Fin cfg0.N) (Nat.zero_mod 32)
    dsimp only at e
    rw [e]
    dsimp only
    rw [sout_A_0, sout_A_1, sout_A_2]
  | succ n ih =>
    intro hn
    by_cases h0 : (n + 1) % 32 = 0
    · have e := outsAt0_A m c (⟨n + 1, hn⟩ : Fin cfg0.N) h0
      dsimp only at e
      rw [e]
      dsimp only
      rw [sout_A_0, sout_A_1, sout_A_2]
    · have e := outsAt0_B m c (⟨n + 1, hn⟩ : Fin cfg0.N) h0
      dsimp only at e
      rw [e]
      dsimp only [sout0_B_0, sout0_B_1, sout0_B_2]
      have key : ∀ (k : ℕ) (hk : k < cfg0.N), k = n →
          (outsAt0 m c k hk).2.2 = ((V m c main_v0 : Vec F S4096x1024 .bf16),
            (V m c main_v1 : Vec F S4096x4096 .bf16), (V m c main_v2 : Vec F S1024x4096 .bf16)) := by
        intro k hk ek; subst ek; exact ih hk
      rw [key (n + 1 - 1) _ (Nat.add_sub_cancel n 1)]

/-- What point `t` stores into the output block: the layer of its rows under the weights HBM holds. -/
theorem stored_out (c : Dev nD) (t : Fin cfg0.N) :
    (outsAt0 m c t.val t.isLt).1
      = Block.outBlock (iblk m c 0 t) (V m c main_v0) (V m c main_v1) (V m c main_v2)
          (iblk m c 2 t) (iblk m c 3 t) (iblk m c 4 t) := by
  by_cases h0 : t.val % 32 = 0
  · rw [outsAt0_A m c t h0]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (V m c main_v0) (V m c main_v1) (V m c main_v2) ((hcond0_0 t).mpr h0)
  · rw [outsAt0_B m c t h0]
    dsimp only
    rw [scratch_after m c (t.val - 1) _]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (V m c main_v0) (V m c main_v1) (V m c main_v2) (fun h => h0 ((hcond0_0 t).mp h)) (V m c main_v0) (V m c main_v1) (V m c main_v2)

/-- What point `t` stores into the log-determinant block: the estimates of its rows under those weights. -/
theorem stored_logdet (c : Dev nD) (t : Fin cfg0.N) :
    (outsAt0 m c t.val t.isLt).2.1
      = Block.logdetBlock (iblk m c 0 t) (iblk m c 1 t) (V m c main_v0) (V m c main_v1) (V m c main_v2)
          (iblk m c 2 t) (iblk m c 3 t) := by
  by_cases h0 : t.val % 32 = 0
  · rw [outsAt0_A m c t h0]
    dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (V m c main_v0) (V m c main_v1) (V m c main_v2) ((hcond0_0 t).mpr h0)
  · rw [outsAt0_B m c t h0]
    dsimp only
    rw [scratch_after m c (t.val - 1) _]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (V m c main_v0) (V m c main_v1) (V m c main_v2) (fun h => h0 ((hcond0_0 t).mp h)) (V m c main_v0) (V m c main_v1) (V m c main_v2)

end Cert.KernelIdeal.Gen

end
-- ==== Proof.Spec.lean ====
/-
  The mathematics both programs compute, one batch row at a time, on the extended reals.

  A row `x : Fin 1024 → EReal` goes through three affine layers with a rectifier after the first two,
      pre1 x j = Σ_k x k · W1[j,k] + b1[j],   act1 = pre1 where pre1 > 0, else 0,
      pre2 x j = Σ_k act1 x k · W2[j,k] + b2[j],   act2 likewise,
      resid x i = Σ_k act2 x k · W3[i,k] + b3[i],
  and the layer's output is `x + resid x`.  The residual branch's Jacobian at `x` is
  W3 · diag(pre2 > 0) · W2 · diag(pre1 > 0) · W1, so its transpose applied to a covector `v` is
      pull v i = Σ_j [pre1 x j > 0] (Σ_k [pre2 x k > 0] (Σ_l v l · W3[l,k]) · W2[k,j]) · W1[j,i].
  The log-determinant estimate is the truncated power series
      Σ_{n<10} c_n · ⟨pullⁿ⁺¹ u, u⟩,   c_n the binary32 words of (-1)ⁿ/(n+1),
  accumulated from 0 in the order n = 0, 1, …, 9.

  Nothing here needs finiteness: every sum is over a fixed finite index set, and the two programs apply
  the same operations in the same nesting, so only commutativity of the index sets' enumeration is used.
-/
import Idealize.ShloMosaic.PureOps.Ideal
import Idealize.ShloMosaic.PureOps.Ideal.Laws
import Idealize.ShloMosaic.Lib.ValueIdx

noncomputable section

namespace Cert.Residual

open Idealize.ShloMosaic Idealize.ShloMosaic.ValueIdx

/-- The rectifier's gate: the one-bit answer to `z > 0`. -/
def gate (z : EReal) : BitVec 1 := Ideal.cmp .ogt z 0

/-- `max z 0` keeps `z` exactly where the gate is set. -/
theorem max_zero_eq_select (z : EReal) : max z 0 = Scalar.select (gate z) z 0 := by
  unfold gate Ideal.cmp Scalar.select
  by_cases h : (0 : EReal) < z
  · simp [h, max_eq_left (le_of_lt h)]
  · simp [h, max_eq_right (not_lt.mp h)]

/-- Row `r` of a two-axis array. -/
def rowOf {n d : Nat} (a : (⟨2, ![n, d]⟩ : Shape).Idx → EReal) (r : Fin n) : Fin d → EReal := fun k => a (ix2 r k)

section Layer

variable (W1 : (⟨2, ![4096, 1024]⟩ : Shape).Idx → EReal) (b1 : (⟨1, ![4096]⟩ : Shape).Idx → EReal)
  (W2 : (⟨2, ![4096, 4096]⟩ : Shape).Idx → EReal) (b2 : (⟨1, ![4096]⟩ : Shape).Idx → EReal)
  (W3 : (⟨2, ![1024, 4096]⟩ : Shape).Idx → EReal) (b3 : (⟨1, ![1024]⟩ : Shape).Idx → EReal)

/-- First affine layer of a row. -/
def pre1 (x : Fin 1024 → EReal) (j : Fin 4096) : EReal := (∑ k : Fin 1024, x k * W1 (ix2 j k)) + b1 (ix1 j)

/-- Its rectified value. -/
def act1 (x : Fin 1024 → EReal) (j : Fin 4096) : EReal := Scalar.select (gate (pre1 W1 b1 x j)) (pre1 W1 b1 x j) 0

/-- Second affine layer. -/
def pre2 (x : Fin 1024 → EReal) (j : Fin 4096) : EReal :=
  (∑ k : Fin 4096, act1 W1 b1 x k * W2 (ix2 j k)) + b2 (ix1 j)

/-- Its rectified value. -/
def act2 (x : Fin 1024 → EReal) (j : Fin 4096) : EReal :=
  Scalar.select (gate (pre2 W1 b1 W2 b2 x j)) (pre2 W1 b1 W2 b2 x j) 0

/-- The residual branch of a row. -/
def resid (x : Fin 1024 → EReal) (i : Fin 1024) : EReal :=
  (∑ k : Fin 4096, act2 W1 b1 W2 b2 x k * W3 (ix2 i k)) + b3 (ix1 i)

/-- The layer's output row: the input plus its residual branch. -/
def out (x : Fin 1024 → EReal) (i : Fin 1024) : EReal := x i + resid W1 b1 W2 b2 W3 b3 x i

/-- The transposed Jacobian of the residual branch applied to a covector `v`, the two rectifiers' gates given
    as bits `g1`, `g2` (for a row `x`: `gate (pre1 x ·)` and `gate (pre2 x ·)`). -/
def pull (g1 g2 : Fin 4096 → BitVec 1) (v : Fin 1024 → EReal) (i : Fin 1024) : EReal :=
  ∑ j : Fin 4096,
    Scalar.select (g1 j)
      (∑ k : Fin 4096, Scalar.select (g2 k) (∑ l : Fin 1024, v l * W3 (ix2 l k)) 0 * W2 (ix2 k j)) 0
      * W1 (ix2 j i)

/-- The power series, accumulated term by term: from the covector `v` and the partial sum `acc`, each coefficient
    word `c` pulls `v` back once more and adds `c · ⟨pull v, u⟩`. -/
def series (g1 g2 : Fin 4096 → BitVec 1) (u : Fin 1024 → EReal) :
    List (BitVec 32) → (Fin 1024 → EReal) → EReal → EReal
  | [], _, acc => acc
  | c :: cs, v, acc =>
      series g1 g2 u cs (pull W1 W2 W3 g1 g2 v)
        (acc + Ideal.ofBits .f32 c * ∑ i : Fin 1024, pull W1 W2 W3 g1 g2 v i * u i)

/-- The binary32 words of 1, -1/2, 1/3, …, -1/10 as both programs spell them. -/
def coeffs : List (BitVec 32) :=
  [0x3F800000#32, 0xBF000000#32, 0x3EAAAAAB#32, 0xBE800000#32, 0x3E4CCCCD#32,
   0xBE2AAAAB#32, 0x3E124925#32, 0xBE000000#32, 0x3DE38E39#32, 0xBDCCCCCD#32]

/-- The log-determinant estimate of a row `x` with probe row `u`. -/
def logdet (x u : Fin 1024 → EReal) : EReal :=
  series W1 W2 W3 (fun j => gate (pre1 W1 b1 x j)) (fun k => gate (pre2 W1 b1 W2 b2 x k)) u coeffs u 0

/-- The whole output array: row by row. -/
def outArr (x : (⟨2, ![8192, 1024]⟩ : Shape).Idx → EReal) : (⟨2, ![8192, 1024]⟩ : Shape).Idx → EReal :=
  fun i => out W1 b1 W2 b2 W3 b3 (rowOf x ⟨(i 0).val, (i 0).isLt⟩) ⟨(i 1).val, (i 1).isLt⟩

/-- The estimates as a column, one per row. -/
def logdetCol (x u : (⟨2, ![8192, 1024]⟩ : Shape).Idx → EReal) : (⟨2, ![8192, 1]⟩ : Shape).Idx → EReal :=
  fun i => logdet W1 b1 W2 b2 W3 (rowOf x ⟨(i 0).val, (i 0).isLt⟩) (rowOf u ⟨(i 0).val, (i 0).isLt⟩)

/-- The same estimates in the result's three-axis layout. -/
def logdetArr (x u : (⟨2, ![8192, 1024]⟩ : Shape).Idx → EReal) : (⟨3, ![8192, 1, 1]⟩ : Shape).Idx → EReal :=
  fun i => logdet W1 b1 W2 b2 W3 (rowOf x ⟨(i 0).val, (i 0).isLt⟩) (rowOf u ⟨(i 0).val, (i 0).isLt⟩)

end Layer

end Cert.Residual

end
-- ==== Proof.KernelRows.lean ====
/-
  One grid point's two stored blocks, read row by row at the ideal instance.

  Every block product of the body goes into a zero accumulator, so at an index it is the plain sum over the
  contraction index; the two bias rows are broadcast down the block; the rectifier is a select on the
  comparison with zero; and the log-determinant column threads a covector through the transposed layers ten
  times, adding one coefficient times an inner product with the probe row each time.  Each of these is read at
  an index (p, ·) of the block and depends on row p of the loaded blocks only, which gives the specification's
  row functions.
-/
import proofs.«115191_j35158602285651_1_alg».proof.Proof.KernelBlock
import proofs.«115191_j35158602285651_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen

/-! ## The six block products at an index -/

theorem lhs_A1_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_A1_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_A1_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_A1_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q
/-- The product of a 128x1024 block with a 4096x1024 matrix along their last axes, into the zero block: entry (p, j) is Σ_k l[p,k] · r[j,k]. -/
theorem mm_A1_apply {φ₁ φ₂ : FTy} (l : FVec Ideal S128x1024 φ₁) (r : FVec Ideal S4096x1024 φ₂) (p : Fin 128) (j : Fin 4096) :
    matmul dot_S128x1024_S4096x1024_S128x4096_1_1_0_0_n_n none l r (constant S128x4096 .f32 0x00000000#32) (ix2 p j)
      = ∑ k : Fin 1024, l (ix2 p k) * r (ix2 j k) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p j) ((contrEquiv1 dot_S128x1024_S4096x1024_S128x4096_1_1_0_0_n_n 1024 rfl rfl).symm k) = ix2 p k := funext fun a => Fin.ext (by
    match a with
    | ⟨0, _⟩ => exact lhs_A1_0 _ _
    | ⟨1, _⟩ => exact (lhs_A1_1 _ _).trans hk)
  have er : dot_S128x1024_S4096x1024_S128x4096_1_1_0_0_n_n.rhsIdx (ix2 p j) ((contrEquiv1 dot_S128x1024_S4096x1024_S128x4096_1_1_0_0_n_n 1024 rfl rfl).symm k) = ix2 j k := funext fun a => Fin.ext (by
    match a with
    | ⟨0, _⟩ => exact rhs_A1_0 _ _
    | ⟨1, _⟩ => exact (rhs_A1_1 _ _).trans hk)
  rw [el, er]

theorem lhs_A2_0 (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl
theorem lhs_A2_1 (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q
theorem rhs_A2_0 (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl
theorem rhs_A2_1 (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q
/-- The product of a 128x4096 block with a 4096x4096 matrix along their last axes, into the zero block: entry (p, j) is Σ_k l[p,k] · r[j,k]. -/
theorem mm_A2_apply {φ₁ φ₂ : FTy} (l : FVec Ideal S128x4096 φ₁) (r : FVec Ideal S4096x4096 φ₂) (p : Fin 128) (j : Fin 4096) :
    matmul dot_S128x4096_S4096x4096_S128x4096_1_1_0_0_n_n none l r (constant S128x4096 .f32 0x00000000#32) (ix2 p j)
      = ∑ k : Fin 4096, l (ix2 p k) * r (ix2 j k) := by
  simp only [matmul]
  rw [Ideal.matmul_constant_zero_apply, ← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p j) ((contrEquiv1 dot_S128x4096_S4096x4096_S128x4096_1_1_0_0_n_n 4096 rfl rfl).symm k) = ix2 p k := funext fun a => Fin.ext (by
    match a with
    | ⟨0, _⟩ => exact lhs_A2_0 _ _
    | ⟨1, _⟩ => exact (lhs_A2_1 _ _).trans hk)
  have er : dot_S128x4096_S4096x4096_S128x4096_1_1_0_0_n_n.rhsIdx (ix2 p j) ((contrEquiv1 dot_S128x4096_S4096x4096_S128x4096_1_1_0_0_n_n 4096 rfl rfl).symm k) = ix2 j k := funext fun a => Fin.ext (by
    match a with
    | ⟨0, _⟩ => exact rhs_A2_0 _ _
    | ⟨1, _⟩ => exact (rhs_A2_1 _ _).trans hk)
  rw [el, er]

theorem lhs_A3_0 (i : S128x1024.Idx) (q : dot_S128x4096_S1024x4096_S128x1024_1_1_0_0_n_n.contr.Idx) :
    (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
theorem lhs_A3_1 (i : S128x1024.Idx) (q : dot_S128x4096_S1024x4096_S128x1024_1_1_0_0_n_n.contr.Idx) :
    (dot_S128x4096_S1024x4096_S128x1024_1_1_0_0_n_n.lhsIdx i q 1).val = (q ⟨0, by decide⟩).val :=
  dot_S128x4096_S1024x4096_S128x1024_1_1_0_0_n_n.lhsIdx_val_of_single rfl i q
theorem rhs_A3_0 (i : S128x1024.Idx) (q : dot_S128x4096_S1024x4096_S128x1024_1_1_0_0_n_n.contr.Idx) :
    (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
theorem rhs_A3_1 (i : S128x1024.Idx) (q : dot_S128x4096_S1024x4096_S128x1024_1_1_0_0_n_n.contr.Idx) :
    (dot_S128x4096_S1024x4096_S128x1024_1_1_0_0_n_n.rhsIdx i q 1).val = (q ⟨0, by decide⟩).val :=
  dot_S128x4096_S1024x4096_S128x1024_1_1_0_0_n_n.rhsIdx_val_of_single rfl i q
/-- The product of a 128x4096 block with a 1024x4096 matrix along their last axes, into the zero block: entry (p, j) is Σ_k l[p,k] · r[j,k]. -/
theorem mm_A3_apply {φ₁ φ₂ : FTy} (l : FVec Ideal S128x4096 φ₁) (r : FVec Ideal S1024x4096 φ₂) (p : Fin 128) (j : Fin 1024) :
    matmul dot_S128x4096_S1024x4096_S128x1024_1_1_0_0_n_n none l r (constant S128x1024 .f32 0x00000000#32) (ix2 p j)
      = ∑ k : Fin 4096, l (ix2 p k) * r (ix2 j k) := by
  simp only [matmul]
  rw [Ideal.matmul_constant_zero_apply, ← Equiv.sum_comp (contrEquiv1 dot_S128x4096_S1024x4096_S128x1024_1_1_0_0_n_n 4096 rfl rfl).symm]
  refine Finset.sum_congr rfl fun k _ => ?_
  have hk := contrEquiv1_symm_val dot_S128x4096_S1024x4096_S128x1024_1_1_0_0_n_n 4096 rfl rfl k
  have el : dot_S128x4096_S1024x4096_S128x1024_1_1_0_0_n_n.lhsIdx (ix2 p j) ((contrEquiv1 dot_S128x4096_S1024x4096_S128x1024_1_1_0_0_n_n 4096 rfl rfl).symm k) = ix2 p k := funext fun a => Fin.ext (by
    match a with
    | ⟨0, _⟩ => exact lhs_A3_0 _ _
    | ⟨1, _⟩ => exact (lhs_A3_1 _ _).trans hk)
  have er : dot_S128x4096_S1024x4096_S128x1024_1_1_0_0_n_n.rhsIdx (ix2 p j) ((contrEquiv1 dot_S128x4096_S1024x4096_S128x1024_1_1_0_0_n_n 4096 rfl rfl).symm k) = ix2 j k := funext fun a => Fin.ext (by
    match a with
    | ⟨0, _⟩ => exact rhs_A3_0 _ _
    | ⟨1, _⟩ => exact (rhs_A3_1 _ _).trans hk)
  rw [el, er]

theorem lhs_B1_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_B1_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_B1_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl
theorem rhs_B1_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
/-- The product of a 128x1024 block with a 1024x4096 matrix, the block's last axis against the matrix's first, into the zero block: entry (p, j) is Σ_k l[p,k] · r[k,j]. -/
theorem mm_B1_apply {φ₁ φ₂ : FTy} (l : FVec Ideal S128x1024 φ₁) (r : FVec Ideal S1024x4096 φ₂) (p : Fin 128) (j : Fin 4096) :
    matmul dot_S128x1024_S1024x4096_S128x4096_1_0_0_1_n_n none l r (constant S128x4096 .f32 0x00000000#32) (ix2 p j)
      = ∑ k : Fin 1024, l (ix2 p k) * r (ix2 k j) := by
  simp only [matmul]
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p j) ((contrEquiv1 dot_S128x1024_S1024x4096_S128x4096_1_0_0_1_n_n 1024 rfl rfl).symm k) = ix2 p k := funext fun a => Fin.ext (by
    match a with
    | ⟨0, _⟩ => exact lhs_B1_0 _ _
    | ⟨1, _⟩ => exact (lhs_B1_1 _ _).trans hk)
  have er : dot_S128x1024_S1024x4096_S128x4096_1_0_0_1_n_n.rhsIdx (ix2 p j) ((contrEquiv1 dot_S128x1024_S1024x4096_S128x4096_1_0_0_1_n_n 1024 rfl rfl).symm k) = ix2 k j := funext fun a => Fin.ext (by
    match a with
    | ⟨1, _⟩ => exact rhs_B1_1 _ _
    | ⟨0, _⟩ => exact (rhs_B1_0 _ _).trans hk)
  rw [el, er]

theorem lhs_B2_0 (i : S128x4096.Idx) (q : dot_S128x4096_S4096x4096_S128x4096_1_0_0_1_n_n.contr.Idx) :
    (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide), dif_pos (show (0 : Fin S128x4096.rank) ∈ dot_S128x4096_S4096x4096_S128x4096_1_0_0_1_n_n.lhsNonContracting by decide)]
  rfl
theorem lhs_B2_1 (i : S128x4096.Idx) (q : dot_S128x4096_S4096x4096_S128x4096_1_0_0_1_n_n.contr.Idx) :
    (dot_S128x4096_S4096x4096_S128x4096_1_0_0_1_n_n.lhsIdx i q 1).val = (q ⟨0, by decide⟩).val :=
  dot_S128x4096_S4096x4096_S128x4096_1_0_0_1_n_n.lhsIdx_val_of_single rfl i q
theorem rhs_B2_1 (i : S128x4096.Idx) (q : dot_S128x4096_S4096x4096_S128x4096_1_0_0_1_n_n.contr.Idx) :
    (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide), dif_pos (show (1 : Fin S4096x4096.rank) ∈ dot_S128x4096_S4096x4096_S128x4096_1_0_0_1_n_n.rhsNonContracting by decide)]
  rfl
theorem rhs_B2_0 (i : S128x4096.Idx) (q : dot_S128x4096_S4096x4096_S128x4096_1_0_0_1_n_n.contr.Idx) :
    (dot_S128x4096_S4096x4096_S128x4096_1_0_0_1_n_n.rhsIdx i q 0).val = (q ⟨0, by decide⟩).val :=
  dot_S128x4096_S4096x4096_S128x4096_1_0_0_1_n_n.rhsIdx_val_of_single rfl i q
/-- The product of a 128x4096 block with a 4096x4096 matrix, the block's last axis against the matrix's first, into the zero block: entry (p, j) is Σ_k l[p,k] · r[k,j]. -/
theorem mm_B2_apply {φ₁ φ₂ : FTy} (l : FVec Ideal S128x4096 φ₁) (r : FVec Ideal S4096x4096 φ₂) (p : Fin 128) (j : Fin 4096) :
    matmul dot_S128x4096_S4096x4096_S128x4096_1_0_0_1_n_n none l r (constant S128x4096 .f32 0x00000000#32) (ix2 p j)
      = ∑ k : Fin 4096, l (ix2 p k) * r (ix2 k j) := by
  simp only [matmul]
  rw [Ideal.matmul_constant_zero_apply, ← Equiv.sum_comp (contrEquiv1 dot_S128x4096_S4096x4096_S128x4096_1_0_0_1_n_n 4096 rfl rfl).symm]
  refine Finset.sum_congr rfl fun k _ => ?_
  have hk := contrEquiv1_symm_val dot_S128x4096_S4096x4096_S128x4096_1_0_0_1_n_n 4096 rfl rfl k
  have el : dot_S128x4096_S4096x4096_S128x4096_1_0_0_1_n_n.lhsIdx (ix2 p j) ((contrEquiv1 dot_S128x4096_S4096x4096_S128x4096_1_0_0_1_n_n 4096 rfl rfl).symm k) = ix2 p k := funext fun a => Fin.ext (by
    match a with
    | ⟨0, _⟩ => exact lhs_B2_0 _ _
    | ⟨1, _⟩ => exact (lhs_B2_1 _ _).trans hk)
  have er : dot_S128x4096_S4096x4096_S128x4096_1_0_0_1_n_n.rhsIdx (ix2 p j) ((contrEquiv1 dot_S128x4096_S4096x4096_S128x4096_1_0_0_1_n_n 4096 rfl rfl).symm k) = ix2 k j := funext fun a => Fin.ext (by
    match a with
    | ⟨1, _⟩ => exact rhs_B2_1 _ _
    | ⟨0, _⟩ => exact (rhs_B2_0 _ _).trans hk)
  rw [el, er]

theorem lhs_B3_0 (i : S128x1024.Idx) (q : dot_S128x4096_S4096x1024_S128x1024_1_0_0_1_n_n.contr.Idx) :
    (dot_S128x4096_S4096x1024_S128x1024_1_0_0_1_n_n.lhsIdx i q 0).val = (i 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem lhs_B3_1 (i : S128x1024.Idx) (q : dot_S128x4096_S4096x1024_S128x1024_1_0_0_1_n_n.contr.Idx) :
    (dot_S128x4096_S4096x1024_S128x1024_1_0_0_1_n_n.lhsIdx i q 1).val = (q ⟨0, by decide⟩).val :=
  dot_S128x4096_S4096x1024_S128x1024_1_0_0_1_n_n.lhsIdx_val_of_single rfl i q
theorem rhs_B3_1 (i : S128x1024.Idx) (q : dot_S128x4096_S4096x1024_S128x1024_1_0_0_1_n_n.contr.Idx) :
    (dot_S128x4096_S4096x1024_S128x1024_1_0_0_1_n_n.rhsIdx i q 1).val = (i 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl
theorem rhs_B3_0 (i : S128x1024.Idx) (q : dot_S128x4096_S4096x1024_S128x1024_1_0_0_1_n_n.contr.Idx) :
    (dot_S128x4096_S4096x1024_S128x1024_1_0_0_1_n_n.rhsIdx i q 0).val = (q ⟨0, by decide⟩).val :=
  dot_S128x4096_S4096x1024_S128x1024_1_0_0_1_n_n.rhsIdx_val_of_single rfl i q
/-- The product of a 128x4096 block with a 4096x1024 matrix, the block's last axis against the matrix's first, into the zero block: entry (p, j) is Σ_k l[p,k] · r[k,j]. -/
theorem mm_B3_apply {φ₁ φ₂ : FTy} (l : FVec Ideal S128x4096 φ₁) (r : FVec Ideal S4096x1024 φ₂) (p : Fin 128) (j : Fin 1024) :
    matmul dot_S128x4096_S4096x1024_S128x1024_1_0_0_1_n_n none l r (constant S128x1024 .f32 0x00000000#32) (ix2 p j)
      = ∑ k : Fin 4096, l (ix2 p k) * r (ix2 k j) := by
  simp only [matmul]
  rw [Ideal.matmul_constant_zero_apply, ← Equiv.sum_comp (contrEquiv1 dot_S128x4096_S4096x1024_S128x1024_1_0_0_1_n_n 4096 rfl rfl).symm]
  refine Finset.sum_congr rfl fun k _ => ?_
  have hk := contrEquiv1_symm_val dot_S128x4096_S4096x1024_S128x1024_1_0_0_1_n_n 4096 rfl rfl k
  have el : dot_S128x4096_S4096x1024_S128x1024_1_0_0_1_n_n.lhsIdx (ix2 p j) ((contrEquiv1 dot_S128x4096_S4096x1024_S128x1024_1_0_0_1_n_n 4096 rfl rfl).symm k) = ix2 p k := funext fun a => Fin.ext (by
    match a with
    | ⟨0, _⟩ => exact lhs_B3_0 _ _
    | ⟨1, _⟩ => exact (lhs_B3_1 _ _).trans hk)
  have er : dot_S128x4096_S4096x1024_S128x1024_1_0_0_1_n_n.rhsIdx (ix2 p j) ((contrEquiv1 dot_S128x4096_S4096x1024_S128x1024_1_0_0_1_n_n 4096 rfl rfl).symm k) = ix2 k j := funext fun a => Fin.ext (by
    match a with
    | ⟨1, _⟩ => exact rhs_B3_1 _ _
    | ⟨0, _⟩ => exact (rhs_B3_0 _ _).trans hk)
  rw [el, er]

/-! ## Bias rows, row sums, and the zero word -/

/-- A 4096-vector cast to one row and broadcast down a 128-row block reads, at (p, j), the vector at j. -/
theorem bias4096_apply {α : Type} (c : S4096.Idx → α) (p : Fin 128) (j : Fin 4096) :
    broadcastTo S128x4096 (shapeCast S1x4096 c shapeCasts_S4096_S1x4096) broadcasts_S1x4096_S128x4096 (ix2 p j) = c (ix1 j) :=
  (broadcastTo_1b_ab_apply _ broadcasts_S1x4096_S128x4096 p j).trans (shapeCast_a_1a_apply c shapeCasts_S4096_S1x4096 0 j)

/-- The same for a 1024-vector. -/
theorem bias1024_apply {α : Type} (c : S1024.Idx → α) (p : Fin 128) (j : Fin 1024) :
    broadcastTo S128x1024 (shapeCast S1x1024 c shapeCasts_S1024_S1x1024) broadcasts_S1x1024_S128x1024 (ix2 p j) = c (ix1 j) :=
  (broadcastTo_1b_ab_apply _ broadcasts_S1x1024_S128x1024 p j).trans (shapeCast_a_1a_apply c shapeCasts_S1024_S1x1024 0 j)

/-- The sum of a block along its rows, as a column: entry (p, ·) is Σ_k a[p,k]. -/
theorem rowsum_apply (a : FVec Ideal S128x1024 .f32) (p : Fin 128) (q : Fin 1) :
    shapeCast S128x1 (multiReduction (F := Ideal) .add [1] S128 a 0x00000000#32 reduces_S128x1024_S128 (.inl rfl) rfl)
        shapeCasts_S128_S128x1 (ix2 p q)
      = ∑ k : Fin 1024, a (ix2 p k) := by
  refine (shapeCast_apply _ shapeCasts_S128_S128x1 (ix2 p q) (ix1 p) ?_).trans ?_
  · rw [Shape.rowMajor_val_two, Shape.rowMajor_val_one]
    show p.val = p.val * 1 + q.val
    omega
  · refine (Ideal.multiReduction_add_single a 0x00000000#32 reduces_S128x1024_S128 (.inl rfl) rfl (ix1 p)).trans ?_
    refine Finset.sum_congr rfl fun k _ => congrArg a ?_
    funext ax
    match ax with
    | ⟨0, _⟩ => exact Fin.ext rfl
    | ⟨1, _⟩ => exact Fin.ext rfl

/-- The zero word is the extended real 0. -/
theorem zero_word : (Scalar.ofBits .f32 0x00000000#32 : Ideal .f32) = 0 := Ideal.ofBits_zero_f32

/-! ## The three layers of a row -/

/-- The first affine layer of the block, row by row. -/
theorem pay1_apply (xb : Vec Ideal S128x1024 .f32) (w1 : Vec Ideal S4096x1024 .bf16) (c1 : Vec Ideal S4096 .f32)
    (p : Fin 128) (j : Fin 4096) :
    k0_pay1 (F := Ideal) xb w1 c1 (ix2 p j) = Cert.Residual.pre1 w1 c1 (Cert.Residual.rowOf xb p) j := by
  unfold k0_pay1
  rw [addf_apply, mm_A1_apply, bias4096_apply]
  rfl

/-- The first rectifier's gate. -/
theorem pay2_apply (xb : Vec Ideal S128x1024 .f32) (w1 : Vec Ideal S4096x1024 .bf16) (c1 : Vec Ideal S4096 .f32)
    (p : Fin 128) (j : Fin 4096) :
    k0_pay2 (F := Ideal) xb w1 c1 (ix2 p j) = Cert.Residual.gate (Cert.Residual.pre1 w1 c1 (Cert.Residual.rowOf xb p) j) := by
  unfold k0_pay2
  rw [cmpf_apply, broadcast_apply, pay1_apply, zero_word]
  rfl

/-- The second affine layer of the block, row by row. -/
theorem pay3_apply (xb : Vec Ideal S128x1024 .f32) (w1 : Vec Ideal S4096x1024 .bf16) (w2 : Vec Ideal S4096x4096 .bf16)
    (c1 c2 : Vec Ideal S4096 .f32) (p : Fin 128) (j : Fin 4096) :
    k0_pay3 (F := Ideal) xb w1 w2 c1 c2 (ix2 p j) = Cert.Residual.pre2 w1 c1 w2 c2 (Cert.Residual.rowOf xb p) j := by
  unfold k0_pay3
  rw [addf_apply, mm_A2_apply, bias4096_apply]
  unfold Cert.Residual.pre2 Cert.Residual.act1
  refine congrArg (· + c2 (ix1 j)) (Finset.sum_congr rfl fun k _ => ?_)
  rw [truncf_apply, select_apply, broadcast_apply, pay2_apply, pay1_apply, zero_word]

/-- The second rectifier's gate. -/
theorem pay4_apply (xb : Vec Ideal S128x1024 .f32) (w1 : Vec Ideal S4096x1024 .bf16) (w2 : Vec Ideal S4096x4096 .bf16)
    (c1 c2 : Vec Ideal S4096 .f32) (p : Fin 128) (j : Fin 4096) :
    k0_pay4 (F := Ideal) xb w1 w2 c1 c2 (ix2 p j)
      = Cert.Residual.gate (Cert.Residual.pre2 w1 c1 w2 c2 (Cert.Residual.rowOf xb p) j) := by
  unfold k0_pay4
  rw [cmpf_apply, broadcast_apply, pay3_apply, zero_word]
  rfl

/-- The stored output block is, row by row, the row plus its residual branch. -/
theorem outBlock_apply (xb : Vec Ideal S128x1024 .f32) (w1 : Vec Ideal S4096x1024 .bf16) (w2 : Vec Ideal S4096x4096 .bf16) (w3 : Vec Ideal S1024x4096 .bf16) (c1 c2 : Vec Ideal S4096 .f32) (c3 : Vec Ideal S1024 .f32) (p : Fin 128) (i : Fin 1024) :
      Cert.KernelIdeal.Block.outBlock (F := Ideal) xb w1 w2 w3 c1 c2 c3 (ix2 p i) = Cert.Residual.out w1 c1 w2 c2 w3 c3 (Cert.Residual.rowOf xb p) i := by
  unfold Cert.KernelIdeal.Block.outBlock k0_pay5
  rw [addf_apply, addf_apply, mm_A3_apply, bias1024_apply]
  unfold Cert.Residual.out Cert.Residual.resid Cert.Residual.act2
  refine congrArg (fun t => xb (ix2 p i) + (t + c3 (ix1 i))) (Finset.sum_congr rfl fun k _ => ?_)
  rw [truncf_apply, select_apply, broadcast_apply, pay4_apply, pay3_apply, zero_word]

/-! ## The log-determinant column: one transposed-Jacobian product, one series term, the series -/

section Series

variable (w1 : Vec Ideal S4096x1024 .bf16) (w2 : Vec Ideal S4096x4096 .bf16) (w3 : Vec Ideal S1024x4096 .bf16)
  (g1 g2 : IVec S128x4096 1)

/-- The body's covector step on a block: through the third layer's matrix, the second rectifier's gates, the
    second layer's matrix, the first rectifier's gates and the first layer's matrix, each product into zero. -/
def vpull (v : FVec Ideal S128x1024 .f32) : FVec Ideal S128x1024 .f32 :=
  matmul (φ₂ := .bf16) dot_S128x4096_S4096x1024_S128x1024_1_0_0_1_n_n none
    (truncf .bf16
      (select g1
        (matmul (φ₂ := .bf16) dot_S128x4096_S4096x4096_S128x4096_1_0_0_1_n_n none
          (truncf .bf16
            (select g2
              (matmul (φ₂ := .bf16) dot_S128x1024_S1024x4096_S128x4096_1_0_0_1_n_n none (truncf .bf16 v bitsLt_bf16_f32) w3
                (constant S128x4096 .f32 0x00000000#32))
              (broadcast S128x4096 (Scalar.ofBits .f32 0x00000000#32)))
            bitsLt_bf16_f32)
          w2 (constant S128x4096 .f32 0x00000000#32))
        (broadcast S128x4096 (Scalar.ofBits .f32 0x00000000#32)))
      bitsLt_bf16_f32)
    w1 (constant S128x1024 .f32 0x00000000#32)

/-- Row by row it is the specification's transposed Jacobian, with that row's gates. -/
theorem vpull_apply (v : FVec Ideal S128x1024 .f32) (p : Fin 128) (i : Fin 1024) :
    vpull w1 w2 w3 g1 g2 v (ix2 p i)
      = Cert.Residual.pull w1 w2 w3 (fun j => g1 (ix2 p j)) (fun k => g2 (ix2 p k)) (Cert.Residual.rowOf v p) i := by
  unfold vpull Cert.Residual.pull
  rw [mm_B3_apply]
  refine Finset.sum_congr rfl fun j _ => ?_
  rw [truncf_apply, select_apply, broadcast_apply, zero_word, mm_B2_apply]
  refine congrArg (fun t => Scalar.select (g1 (ix2 p j)) t 0 * w1 (ix2 j i)) (Finset.sum_congr rfl fun k _ => ?_)
  rw [truncf_apply, select_apply, broadcast_apply, mm_B1_apply]
  rfl

/-- One series term of the body: the coefficient word times the row sums of a covector block against the probe block. -/
def vterm (c : BitVec 32) (pv u : FVec Ideal S128x1024 .f32) : FVec Ideal S128x1 .f32 :=
  mulf (broadcast S128x1 (Scalar.ofBits .f32 c))
    (shapeCast S128x1
      (multiReduction (F := Ideal) .add [1] S128 (mulf pv u) 0x00000000#32 reduces_S128x1024_S128 (.inl rfl) rfl)
      shapeCasts_S128_S128x1)

theorem vterm_apply (c : BitVec 32) (pv u : FVec Ideal S128x1024 .f32) (p : Fin 128) (q : Fin 1) :
    vterm c pv u (ix2 p q) = Ideal.ofBits .f32 c * ∑ i : Fin 1024, pv (ix2 p i) * u (ix2 p i) := by
  unfold vterm
  rw [mulf_apply, broadcast_apply, rowsum_apply]
  rfl

/-- The body's series on a block, term by term as the specification's: each coefficient pulls the covector block back
    once more and adds its term to the partial sums. -/
def vseries (u : FVec Ideal S128x1024 .f32) :
    List (BitVec 32) → FVec Ideal S128x1024 .f32 → FVec Ideal S128x1 .f32 → FVec Ideal S128x1 .f32
  | [], _, acc => acc
  | c :: cs, v, acc =>
      vseries u cs (vpull w1 w2 w3 g1 g2 v) (addf acc (vterm c (vpull w1 w2 w3 g1 g2 v) u))

/-- Row by row the block series is the specification's series at that row's gates, covector and partial sum. -/
theorem vseries_apply (u : FVec Ideal S128x1024 .f32) (cs : List (BitVec 32)) (v : FVec Ideal S128x1024 .f32)
    (acc : FVec Ideal S128x1 .f32) (p : Fin 128) (q : Fin 1) :
    vseries w1 w2 w3 g1 g2 u cs v acc (ix2 p q)
      = Cert.Residual.series w1 w2 w3 (fun j => g1 (ix2 p j)) (fun k => g2 (ix2 p k)) (Cert.Residual.rowOf u p) cs
          (Cert.Residual.rowOf v p) (acc (ix2 p q)) := by
  induction cs generalizing v acc with
  | nil => rfl
  | cons c cs ih =>
    have hv : Cert.Residual.rowOf (vpull w1 w2 w3 g1 g2 v) p
        = Cert.Residual.pull w1 w2 w3 (fun j => g1 (ix2 p j)) (fun k => g2 (ix2 p k)) (Cert.Residual.rowOf v p) :=
      funext fun i => vpull_apply w1 w2 w3 g1 g2 v p i
    have hacc : (addf acc (vterm c (vpull w1 w2 w3 g1 g2 v) u)) (ix2 p q)
        = acc (ix2 p q) + Ideal.ofBits .f32 c * ∑ i : Fin 1024,
            Cert.Residual.pull w1 w2 w3 (fun j => g1 (ix2 p j)) (fun k => g2 (ix2 p k)) (Cert.Residual.rowOf v p) i
              * Cert.Residual.rowOf u p i := by
      rw [addf_apply, vterm_apply]
      refine congrArg (fun t => acc (ix2 p q) + Ideal.ofBits .f32 c * t) (Finset.sum_congr rfl fun i _ => ?_)
      rw [vpull_apply]
      rfl
    show vseries w1 w2 w3 g1 g2 u cs (vpull w1 w2 w3 g1 g2 v) (addf acc (vterm c (vpull w1 w2 w3 g1 g2 v) u)) (ix2 p q) = _
    rw [ih, hv, hacc]
    rfl

end Series

/-! ## The stored column is the series -/

/-- The chain of values the body threads through its ten terms is the block series at the ten coefficient words,
    started from the probe block and the zero column: the same operations in the same order. -/
theorem logdetBlock_eq_vseries (xb ub : Vec Ideal S128x1024 .f32) (w1 : Vec Ideal S4096x1024 .bf16)
    (w2 : Vec Ideal S4096x4096 .bf16) (w3 : Vec Ideal S1024x4096 .bf16) (c1 c2 : Vec Ideal S4096 .f32) :
    Cert.KernelIdeal.Block.logdetBlock (F := Ideal) xb ub w1 w2 w3 c1 c2
      = vseries w1 w2 w3 (k0_pay2 (F := Ideal) xb w1 c1) (k0_pay4 (F := Ideal) xb w1 w2 c1 c2) ub Cert.Residual.coeffs ub
          (broadcast S128x1 (Scalar.ofBits .f32 0x00000000#32)) := by
  unfold Cert.KernelIdeal.Block.logdetBlock
  generalize k0_pay2 (F := Ideal) xb w1 c1 = g1
  generalize k0_pay4 (F := Ideal) xb w1 w2 c1 c2 = g2
  unfold k0_pay19 k0_pay18 k0_pay17 k0_pay16 k0_pay15 k0_pay14 k0_pay13 k0_pay12 k0_pay11 k0_pay10 k0_pay9 k0_pay8 k0_pay7 k0_pay6
  rfl

/-- The stored column of estimates is, row by row, the specification's log-determinant estimate of that row with its probe row. -/
theorem logdetBlock_apply (xb ub : Vec Ideal S128x1024 .f32) (w1 : Vec Ideal S4096x1024 .bf16) (w2 : Vec Ideal S4096x4096 .bf16) (w3 : Vec Ideal S1024x4096 .bf16) (c1 c2 : Vec Ideal S4096 .f32) (p : Fin 128) (q : Fin 1) :
      Cert.KernelIdeal.Block.logdetBlock (F := Ideal) xb ub w1 w2 w3 c1 c2 (ix2 p q) = Cert.Residual.logdet w1 c1 w2 c2 w3 (Cert.Residual.rowOf xb p) (Cert.Residual.rowOf ub p) := by
  rw [logdetBlock_eq_vseries, vseries_apply, broadcast_apply, zero_word]
  unfold Cert.Residual.logdet
  have h1 : (fun j => k0_pay2 (F := Ideal) xb w1 c1 (ix2 p j))
      = fun j => Cert.Residual.gate (Cert.Residual.pre1 w1 c1 (Cert.Residual.rowOf xb p) j) :=
    funext fun j => pay2_apply xb w1 c1 p j
  have h2 : (fun k => k0_pay4 (F := Ideal) xb w1 w2 c1 c2 (ix2 p k))
      = fun k => Cert.Residual.gate (Cert.Residual.pre2 w1 c1 w2 c2 (Cert.Residual.rowOf xb p) k) :=
    funext fun k => pay4_apply xb w1 w2 c1 c2 p k
  rw [h1, h2]

end Cert.KernelIdeal.Rows

end
-- ==== Proof.KernelArrays.lean ====
/-
  From blocks to whole arrays, and the kernel program's run read as values.

  Point `t` of the 64-point grid owns rows 128·t … 128·t + 127: its blocks of `x`, of the probe and of both outputs
  all sit at block row `t`, block column 0, and the three bias windows are whole. So the block a point stores is
  the restriction to its rows of ONE function of the arrays the region finds: `Residual.outArr` for the output and
  `Residual.logdetCol` for the estimates (row `128·t + p` of an array is row `p` of the point's block). The 64 blocks
  tile both output arrays, so after the run the arrays hold those functions everywhere. Before the region the three
  weight matrices are narrowed to bf16, which changes nothing on the extended reals; after it the column of
  estimates is reshaped to [8192, 1, 1], which keeps entry `r` at `(r, 0, 0)`.
-/
import proofs.«115191_j35158602285651_1_alg».proof.Proof.KernelPoints
import proofs.«115191_j35158602285651_1_alg».proof.Proof.KernelRows
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays as the region finds them, and a point's blocks, at their literal types -/

abbrev xArr (c : Dev nD) : S8192x1024.Idx → EReal := V m c main_arg0
abbrev uArr (c : Dev nD) : S8192x1024.Idx → EReal := V m c main_arg1
abbrev w1Arr (c : Dev nD) : S4096x1024.Idx → EReal := V m c main_v0
abbrev b1Arr (c : Dev nD) : S4096.Idx → EReal := V m c main_arg3
abbrev w2Arr (c : Dev nD) : S4096x4096.Idx → EReal := V m c main_v1
abbrev b2Arr (c : Dev nD) : S4096.Idx → EReal := V m c main_arg5
abbrev w3Arr (c : Dev nD) : S1024x4096.Idx → EReal := V m c main_v2
abbrev b3Arr (c : Dev nD) : S1024.Idx → EReal := V m c main_arg7

abbrev xBlk (c : Dev nD) (t : Fin cfg0.N) : S128x1024.Idx → EReal := iblk m c 0 t
abbrev uBlk (c : Dev nD) (t : Fin cfg0.N) : S128x1024.Idx → EReal := iblk m c 1 t
abbrev b1Blk (c : Dev nD) (t : Fin cfg0.N) : S4096.Idx → EReal := iblk m c 2 t
abbrev b2Blk (c : Dev nD) (t : Fin cfg0.N) : S4096.Idx → EReal := iblk m c 3 t
abbrev b3Blk (c : Dev nD) (t : Fin cfg0.N) : S1024.Idx → EReal := iblk m c 4 t

/-- The whole output array, as a function of the arrays the region finds. -/
abbrev outWhole (c : Dev nD) : S8192x1024.Idx → EReal :=
  Cert.Residual.outArr (w1Arr m c) (b1Arr m c) (w2Arr m c) (b2Arr m c) (w3Arr m c) (b3Arr m c) (xArr m c)

/-- The whole column of estimates likewise. -/
abbrev logdetWhole (c : Dev nD) : S8192x1.Idx → EReal :=
  Cert.Residual.logdetCol (w1Arr m c) (b1Arr m c) (w2Arr m c) (b2Arr m c) (w3Arr m c) (xArr m c) (uArr m c)

/-! ## Where the blocks sit -/

/-- The printed index maps over the grid: the row-tiled windows are at block `(t, 0)`, the bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := lt_of_lt_of_eq t.isLt N_0

/-- Row `p` of point `t`'s block of `x` is row `128·t + p` of `x`. -/
theorem xBlk_row (c : Dev nD) (t : Fin cfg0.N) (p : Fin 128) (r : Fin 8192) (hr : r.val = t.val * 128 + p.val) (k : Fin 1024) :
    xBlk m c t (ix2 p k) = xArr m c (ix2 r k) := by
  obtain ⟨e0, e1, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 128 + 1 * p.val = r.val; omega
  | ⟨1, _⟩ => show win0_0.index t (1 : Fin 2) * 1024 + 1 * k.val = k.val; omega

/-- The same for the probe. -/
theorem uBlk_row (c : Dev nD) (t : Fin cfg0.N) (p : Fin 128) (r : Fin 8192) (hr : r.val = t.val * 128 + p.val) (k : Fin 1024) :
    uBlk m c t (ix2 p k) = uArr m c (ix2 r k) := by
  obtain ⟨-, -, e0, e1, -⟩ := idx_facts t
  show V m c main_arg1 (((cfg0.win 1).blk t).view.emb (ix2 p k)) = V m c main_arg1 (ix2 r k)
  refine congrArg (V m c main_arg1) (funext fun a => Fin.ext ?_)
  match a with
  | ⟨0, _⟩ => show win0_1.index t (0 : Fin 2) * 128 + 1 * p.val = r.val; omega
  | ⟨1, _⟩ => show win0_1.index t (1 : Fin 2) * 1024 + 1 * k.val = k.val; omega

/-- The bias windows are the whole bias vectors. -/
theorem b1Blk_eq (c : Dev nD) (t : Fin cfg0.N) : b1Blk m c t = b1Arr m c := by
  obtain ⟨-, -, -, -, e, -⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 1) * 4096 + 1 * (y 0).val = (y 0).val; omega

theorem b2Blk_eq (c : Dev nD) (t : Fin cfg0.N) : b2Blk m c t = b2Arr m c := by
  obtain ⟨-, -, -, -, -, e, -⟩ := idx_facts t
  funext y
  show V m c main_arg5 (((cfg0.win 3).blk t).view.emb y) = V m c main_arg5 y
  refine congrArg (V m c main_arg5) (funext fun a => Fin.ext ?_)
  match a with
  | ⟨0, _⟩ => show win0_3.index t (0 : Fin 1) * 4096 + 1 * (y 0).val = (y 0).val; omega

theorem b3Blk_eq (c : Dev nD) (t : Fin cfg0.N) : b3Blk m c t = b3Arr m c := by
  obtain ⟨-, -, -, -, -, -, e, -⟩ := idx_facts t
  funext y
  show V m c main_arg7 (((cfg0.win 4).blk t).view.emb y) = V m c main_arg7 y
  refine congrArg (V m c main_arg7) (funext fun a => Fin.ext ?_)
  match a with
  | ⟨0, _⟩ => show win0_4.index t (0 : Fin 1) * 1024 + 1 * (y 0).val = (y 0).val; omega

/-! ## A block's entry is the whole-array function at the entry's place -/

section Rows
variable (W1 : S4096x1024.Idx → EReal) (c1 : S4096.Idx → EReal) (W2 : S4096x4096.Idx → EReal) (c2 : S4096.Idx → EReal)
  (W3 : S1024x4096.Idx → EReal) (c3 : S1024.Idx → EReal)

/-- A row of a block that agrees with row `r` of the array gives the array function's value at `(r, q)`. -/
theorem out_at (X : S8192x1024.Idx → EReal) (xb : S128x1024.Idx → EReal) (p : Fin 128) (q : Fin 1024) (r : Fin 8192)
    (i : S8192x1024.Idx) (hi0 : (i 0).val = r.val) (hi1 : (i 1).val = q.val)
    (hx : ∀ k : Fin 1024, xb (ix2 p k) = X (ix2 r k)) :
    Cert.Residual.out W1 c1 W2 c2 W3 c3 (Cert.Residual.rowOf xb p) q = Cert.Residual.outArr W1 c1 W2 c2 W3 c3 X i := by
  unfold Cert.Residual.outArr
  have h0 : (⟨(i 0).val, (i 0).isLt⟩ : Fin 8192) = r := Fin.ext hi0
  have h1 : (⟨(i 1).val, (i 1).isLt⟩ : Fin 1024) = q := Fin.ext hi1
  rw [h0, h1]
  exact congrArg (fun row => Cert.Residual.out W1 c1 W2 c2 W3 c3 row q) (funext fun k => hx k)

/-- The same for the estimates. -/
theorem logdet_at (X U : S8192x1024.Idx → EReal) (xb ub : S128x1024.Idx → EReal) (p : Fin 128) (r : Fin 8192)
    (i : S8192x1.Idx) (hi0 : (i 0).val = r.val)
    (hx : ∀ k : Fin 1024, xb (ix2 p k) = X (ix2 r k)) (hu : ∀ k : Fin 1024, ub (ix2 p k) = U (ix2 r k)) :
    Cert.Residual.logdet W1 c1 W2 c2 W3 (Cert.Residual.rowOf xb p) (Cert.Residual.rowOf ub p)
      = Cert.Residual.logdetCol W1 c1 W2 c2 W3 X U i := by
  unfold Cert.Residual.logdetCol
  have h0 : (⟨(i 0).val, (i 0).isLt⟩ : Fin 8192) = r := Fin.ext hi0
  rw [h0]
  have ex : Cert.Residual.rowOf xb p = Cert.Residual.rowOf X r := funext fun k => hx k
  have eu : Cert.Residual.rowOf ub p = Cert.Residual.rowOf U r := funext fun k => hu k
  rw [ex, eu]

end Rows

/-! ## What each point writes back -/

/-- Point `t` writes back block `t` of the whole output array. -/
theorem flushed_out (c : Dev nD) (t : Fin cfg0.N) :
    (dats m 0 c).flushed 5 t = ((cfg0.win 5).blk t).view.read (Elt Ideal) (outWhole m c) := by
  show (cfg0.win 5).cut (grid0.coords t) ((dats m 0 c).after 5 t) = _
  rw [after0_5, stored_out]
  obtain ⟨-, -, -, -, -, -, -, e0, e1, -⟩ := idx_facts t
  have ht := t_lt t
  funext j
  obtain ⟨p, q, rfl⟩ : ∃ (p : Fin 128) (q : Fin 1024), j = ix2 p q := ⟨j 0, j 1, eq_ix2 j⟩
  show Block.outBlock (F := Ideal) (xBlk m c t) (w1Arr m c) (w2Arr m c) (w3Arr m c) (b1Blk m c t) (b2Blk m c t) (b3Blk m c t) (ix2 p q)
      = outWhole m c (((cfg0.win 5).blk t).view.emb (ix2 p q))
  refine (Rows.outBlock_apply (xBlk m c t) (w1Arr m c) (w2Arr m c) (w3Arr m c) (b1Blk m c t) (b2Blk m c t) (b3Blk m c t) p q).trans ?_
  rw [b1Blk_eq, b2Blk_eq, b3Blk_eq]
  have hp := p.isLt
  refine out_at (w1Arr m c) (b1Arr m c) (w2Arr m c) (b2Arr m c) (w3Arr m c) (b3Arr m c) (xArr m c) (xBlk m c t) p q
    ⟨t.val * 128 + p.val, by omega⟩ _ ?_ ?_ (fun k => xBlk_row m c t p _ rfl k)
  · show win0_5.index t (0 : Fin 2) * 128 + 1 * p.val = t.val * 128 + p.val; omega
  · show win0_5.index t (1 : Fin 2) * 1024 + 1 * q.val = q.val; omega

/-- Point `t` writes back block `t` of the whole column of estimates. -/
theorem flushed_logdet (c : Dev nD) (t : Fin cfg0.N) :
    (dats m 0 c).flushed 6 t = ((cfg0.win 6).blk t).view.read (Elt Ideal) (logdetWhole m c) := by
  show (cfg0.win 6).cut (grid0.coords t) ((dats m 0 c).after 6 t) = _
  rw [after0_6, stored_logdet]
  obtain ⟨-, -, -, -, -, -, -, -, -, e0, e1⟩ := idx_facts t
  have ht := t_lt t
  funext j
  obtain ⟨p, q, rfl⟩ : ∃ (p : Fin 128) (q : Fin 1), j = ix2 p q := ⟨j 0, j 1, eq_ix2 j⟩
  show Block.logdetBlock (F := Ideal) (xBlk m c t) (uBlk m c t) (w1Arr m c) (w2Arr m c) (w3Arr m c) (b1Blk m c t) (b2Blk m c t) (ix2 p q)
      = logdetWhole m c (((cfg0.win 6).blk t).view.emb (ix2 p q))
  refine (Rows.logdetBlock_apply (xBlk m c t) (uBlk m c t) (w1Arr m c) (w2Arr m c) (w3Arr m c) (b1Blk m c t) (b2Blk m c t) p q).trans ?_
  rw [b1Blk_eq, b2Blk_eq]
  have hp := p.isLt
  refine logdet_at (w1Arr m c) (b1Arr m c) (w2Arr m c) (b2Arr m c) (w3Arr m c) (xArr m c) (uArr m c) (xBlk m c t) (uBlk m c t) p
    ⟨t.val * 128 + p.val, by omega⟩ _ ?_ (fun k => xBlk_row m c t p _ rfl k) (fun k => uBlk_row m c t p _ rfl k)
  show win0_6.index t (0 : Fin 2) * 128 + 1 * p.val = t.val * 128 + p.val; omega

/-! ## The blocks tile the arrays -/

theorem mem_blk_out (t : Fin cfg0.N) (i : S8192x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v3_0).slice (win0_5.rect t)).set ↔ _
  rw [View.set_slice_whole, Rect.mem_set_unit]
  exact Iff.rfl

theorem mem_blk_logdet (t : Fin cfg0.N) (i : S8192x1.Idx) :
    i ∈ ((cfg0.win 6).blk t).view.set ↔ ∀ a : Fin 2, win0_6.index t a * S128x1.size a ≤ (i a).val
      ∧ (i a).val < win0_6.index t a * S128x1.size a + S128x1.size a := by
  show i ∈ ((View.whole main_v3_1).slice (win0_6.rect t)).set ↔ _
  rw [View.set_slice_whole, Rect.mem_set_unit]
  exact Iff.rfl

/-- Row `r` lies in the block of point `r / 128`. -/
theorem cover_out (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 128 < cfg0.N := lt_of_lt_of_eq (by omega : (i 0).val / 128 < 64) N_0.symm
  obtain ⟨-, -, -, -, -, -, -, e0, e1, -⟩ := idx_facts ⟨(i 0).val / 128, hN⟩
  refine ⟨⟨(i 0).val / 128, hN⟩, flush0_5 _, ?_⟩
  rw [mem_blk_out]
  intro a
  match a with
  | ⟨0, _⟩ =>
    show win0_5.index ⟨(i 0).val / 128, hN⟩ (0 : Fin 2) * 128 ≤ (i 0).val
      ∧ (i 0).val < win0_5.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, hN⟩ (1 : Fin 2) * 1024 ≤ (i 1).val
      ∧ (i 1).val < win0_5.index ⟨(i 0).val / 128, hN⟩ (1 : Fin 2) * 1024 + 1024
    rw [e1]; omega

theorem cover_logdet (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : (i 0).val / 128 < cfg0.N := lt_of_lt_of_eq (by omega : (i 0).val / 128 < 64) N_0.symm
  obtain ⟨-, -, -, -, -, -, -, -, -, e0, e1⟩ := idx_facts ⟨(i 0).val / 128, hN⟩
  refine ⟨⟨(i 0).val / 128, hN⟩, flush0_6 _, ?_⟩
  rw [mem_blk_logdet]
  intro a
  match a with
  | ⟨0, _⟩ =>
    show win0_6.index ⟨(i 0).val / 128, hN⟩ (0 : Fin 2) * 128 ≤ (i 0).val
      ∧ (i 0).val < win0_6.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_6.index ⟨(i 0).val / 128, hN⟩ (1 : Fin 2) * 1 ≤ (i 1).val
      ∧ (i 1).val < win0_6.index ⟨(i 0).val / 128, hN⟩ (1 : Fin 2) * 1 + 1
    rw [e1]; omega

/-! ## The arrays after the region -/

theorem final_out (c : Dev nD) : (dats m 0 c).arrAt 5 cfg0.N = outWhole m c :=
  (dats m 0 c).arrAt_eq_of_cover 5 (outWhole m c) (fun t _ => flushed_out m c t) cover_out

theorem final_logdet (c : Dev nD) : (dats m 0 c).arrAt 6 cfg0.N = logdetWhole m c :=
  (dats m 0 c).arrAt_eq_of_cover 6 (logdetWhole m c) (fun t _ => flushed_logdet m c t) cover_logdet

end Cert.KernelIdeal.Arrays

end
-- ==== Proof.KernelRun.lean ====
/-
  The kernel program's run, read as values of its arguments.

  Before the region the three weight matrices are narrowed to bf16: on the extended reals that is the identity, so
  the region finds the weights themselves. After it the column of estimates is reshaped to [8192, 1, 1]: entry
  `(r, 0, 0)` of the result is entry `(r, 0)` of the column. With the arrays after the region known, every weakly
  fair run of the program ends with the first result at `Residual.outArr` and the second at `Residual.logdetArr`
  of the eight argument arrays, and the arguments unchanged.
-/
import proofs.«115191_j35158602285651_1_alg».proof.Proof.KernelArrays
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The weights the region finds are the argument arrays -/

theorem w1Arr_eq (c : Dev nD) : w1Arr m c = m ((c.tc : Thread nD τ).loc main_arg2) := by
  show StableHlo.after hostOps0 (fun b => m (c, b)) (Proc.devRef .tc main_v0) = _
  after_results
  rfl

theorem w2Arr_eq (c : Dev nD) : w2Arr m c = m ((c.tc : Thread nD τ).loc main_arg4) := by
  show StableHlo.after hostOps0 (fun b => m (c, b)) (Proc.devRef .tc main_v1) = _
  after_results
  rfl

theorem w3Arr_eq (c : Dev nD) : w3Arr m c = m ((c.tc : Thread nD τ).loc main_arg6) := by
  show StableHlo.after hostOps0 (fun b => m (c, b)) (Proc.devRef .tc main_v2) = _
  after_results
  rfl

/-- The output array as a function of the ARGUMENTS. -/
theorem outWhole_eq (c : Dev nD) :
    outWhole m c = Cert.Residual.outArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg0)) := by
  show Cert.Residual.outArr (w1Arr m c) (V m c main_arg3) (w2Arr m c) (V m c main_arg5) (w3Arr m c) (V m c main_arg7) (V m c main_arg0) = _
  rw [w1Arr_eq, w2Arr_eq, w3Arr_eq, V_main_arg0, V_main_arg3, V_main_arg5, V_main_arg7]

/-- The column of estimates as a function of the ARGUMENTS. -/
theorem logdetWhole_eq (c : Dev nD) :
    logdetWhole m c = Cert.Residual.logdetCol (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg1)) := by
  show Cert.Residual.logdetCol (w1Arr m c) (V m c main_arg3) (w2Arr m c) (V m c main_arg5) (w3Arr m c) (V m c main_arg0) (V m c main_arg1) = _
  rw [w1Arr_eq, w2Arr_eq, w3Arr_eq, V_main_arg0, V_main_arg1, V_main_arg3, V_main_arg5]

/-! ## The reshape after the region -/

/-- Reshaping the column to three axes keeps each row's estimate at `(r, 0, 0)`. -/
theorem reshape_col (W1 : S4096x1024.Idx → EReal) (c1 : S4096.Idx → EReal) (W2 : S4096x4096.Idx → EReal) (c2 : S4096.Idx → EReal)
    (W3 : S1024x4096.Idx → EReal) (X U : S8192x1024.Idx → EReal) :
    shapeCast S8192x1x1 (Cert.Residual.logdetCol W1 c1 W2 c2 W3 X U) shapeCasts_S8192x1_S8192x1x1
      = Cert.Residual.logdetArr W1 c1 W2 c2 W3 X U := by
  funext i
  have h0 : (i 0).val < 8192 := (i 0).isLt
  have h1 : (i 1).val < 1 := (i 1).isLt
  have h2 : (i 2).val < 1 := (i 2).isLt
  rw [shapeCast_apply _ shapeCasts_S8192x1_S8192x1x1 i (ix2 (⟨(i 0).val, h0⟩ : Fin 8192) (⟨0, Nat.one_pos⟩ : Fin 1))
    (by rewrite [Shape.rowMajor_val_two, Shape.rowMajor_val_three]
        show (i 0).val * 1 + 0 = ((i 0).val * 1 + (i 1).val) * 1 + (i 2).val
        omega)]
  rfl

/-- What the program's last operation leaves in the second result. -/
theorem tail_logdet (c : Dev nD) :
    Pipeline.afterTail₀ cfgs (dats m) 0 (V0 m) [hostOps1] c main_v4
      = Cert.Residual.logdetArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_1)
      = logdetWhole m c :=
    (Pipeline.withArrays_arr spec0 launch0.win.arr_inj c _ _ 6).trans (final_logdet m c)
  rw [e, logdetWhole_eq]
  exact reshape_col _ _ _ _ _ _ _

/-! ## The run -/

/-- Every weakly fair run of the kernel program ends with both results at the specification of the arguments, and
    the arguments as they were. -/
theorem run : θ_run defs (onTc (τ := τ) (main (F := Ideal))) ⟨m, fun _ => 0, ρ⟩ (fun r => ∀ c : Dev nD,
      r.2.mem ((c.tc : Thread nD τ).loc main_v3_0)
        = Cert.Residual.outArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg0))
      ∧ r.2.mem ((c.tc : Thread nD τ).loc main_v4)
        = Cert.Residual.logdetArr (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 5).trans ((final_out m c).trans (outWhole_eq m c)),
      ((h c).2 main_v4 (Pipeline.mem_restRefs_of main_v4 (by decide) (by decide))).trans (tail_logdet m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c)))⟩)
    (run_main m ρ)

end Cert.KernelIdeal.Arrays

end
-- ==== Proof.RefRows.lean ====
/-
  The reference program, read one batch row at a time.

  Every host operation of the reference acts on whole arrays.  Read at an index (r, ·) each of them
  only looks at row r of its operands: a matrix product against a transposed weight is a sum over the
  contracted index, a rectifier is a selection on the sign of the pre-activation, and the row sum of the
  power series is a sum over the 1024 columns.  So the first result is the layer's output row by row, and
  the second is the ten-term series of transposed-Jacobian products of that row, accumulated from zero.
-/
import proofs.«115191_j35158602285651_1_alg».proof.Proof.Gen.ReferenceIdeal.Read
import proofs.«115191_j35158602285651_1_alg».proof.Proof.Spec
import Idealize.ShloMosaic.PureOps.Ideal.Laws
import Idealize.ShloMosaic.Lib.ValueIdx

noncomputable section

namespace Cert.ReferenceIdeal.Rows

open Idealize.ShloMosaic Idealize.ShloMosaic.ValueIdx Cert.ReferenceIdeal Cert.ReferenceIdeal.Gen Cert.ReferenceIdeal.Read
open Cert.Residual

/-- A float array of shape `S` at the ideal instance: a function from indices to extended reals. -/
abbrev Arr (S : Shape) : Type := FVec Ideal S .f32

/-! ## Index arithmetic: the generated index functions at explicit coordinates -/

theorem lidx_v1 (r : Fin 8192) (j : Fin 4096) (k : Fin 1024) : lidx_main_v1 (ix2 r j) k = ix2 r k :=
  funext fun a => match a with | ⟨0, _⟩ => rfl | ⟨1, _⟩ => rfl
theorem ridx_v1 (r : Fin 8192) (j : Fin 4096) (k : Fin 1024) : idx_main_v0 (ridx_main_v1 (ix2 r j) k) = ix2 j k :=
  funext fun a => match a with | ⟨0, _⟩ => rfl | ⟨1, _⟩ => rfl
theorem bidx_v3 (r : Fin 8192) (j : Fin 4096) : idx_main_v2 (idx_main_v3 (ix2 r j)) = ix1 j :=
  funext fun a => match a with | ⟨0, _⟩ => rfl
theorem lidx_v10 (r : Fin 8192) (j k : Fin 4096) : lidx_main_v10 (ix2 r j) k = ix2 r k :=
  funext fun a => match a with | ⟨0, _⟩ => rfl | ⟨1, _⟩ => rfl
theorem ridx_v10 (r : Fin 8192) (j k : Fin 4096) : idx_main_v9 (ridx_main_v10 (ix2 r j) k) = ix2 j k :=
  funext fun a => match a with | ⟨0, _⟩ => rfl | ⟨1, _⟩ => rfl
theorem bidx_v12 (r : Fin 8192) (j : Fin 4096) : idx_main_v11 (idx_main_v12 (ix2 r j)) = ix1 j :=
  funext fun a => match a with | ⟨0, _⟩ => rfl
theorem lidx_v19 (r : Fin 8192) (i : Fin 1024) (k : Fin 4096) : lidx_main_v19 (ix2 r i) k = ix2 r k :=
  funext fun a => match a with | ⟨0, _⟩ => rfl | ⟨1, _⟩ => rfl
theorem ridx_v19 (r : Fin 8192) (i : Fin 1024) (k : Fin 4096) : idx_main_v18 (ridx_main_v19 (ix2 r i) k) = ix2 i k :=
  funext fun a => match a with | ⟨0, _⟩ => rfl | ⟨1, _⟩ => rfl
theorem bidx_v21 (r : Fin 8192) (i : Fin 1024) : idx_main_v20 (idx_main_v21 (ix2 r i)) = ix1 i :=
  funext fun a => match a with | ⟨0, _⟩ => rfl

/-! ## The forward pass, row by row -/

/-- The first pre-activation at (r, j) is the first affine layer of row r. -/
theorem v4_row (x0 : Arr S8192x1024) (x2 : Arr S4096x1024) (x3 : Arr S4096) (r : Fin 8192) (j : Fin 4096) :
    val_main_v4 (F := Ideal) x0 x2 x3 (ix2 r j) = pre1 x2 x3 (rowOf x0 r) j := by
  rw [val_main_v4_apply, val_main_v1_apply, val_main_v3_apply, val_main_v2_apply, bidx_v3]
  unfold pre1 rowOf
  refine congrArg (· + x3 (ix1 j)) (Finset.sum_congr rfl fun k _ => ?_)
  rw [val_main_v0_apply, lidx_v1, ridx_v1]

/-- The rectified first layer: the maximum against zero is the selection on the gate. -/
theorem v5_row (x0 : Arr S8192x1024) (x2 : Arr S4096x1024) (x3 : Arr S4096) (r : Fin 8192) (j : Fin 4096) :
    val_main_v5 (F := Ideal) x0 x2 x3 (ix2 r j) = act1 x2 x3 (rowOf x0 r) j := by
  rw [val_main_v5_apply, val_main_call0_v0_apply, val_main_call0_cst_apply, v4_row]
  exact (congrArg (max _) Ideal.ofBits_zero_f32).trans (max_zero_eq_select _)

/-- The first gate: the comparison of the pre-activation against zero. -/
theorem v7_row (x0 : Arr S8192x1024) (x2 : Arr S4096x1024) (x3 : Arr S4096) (r : Fin 8192) (j : Fin 4096) :
    val_main_v7 (F := Ideal) x0 x2 x3 (ix2 r j) = gate (pre1 x2 x3 (rowOf x0 r) j) := by
  rw [val_main_v7_apply, val_main_v6_apply, val_main_cst_apply, v4_row]
  exact congrArg (Ideal.cmp .ogt _) Ideal.ofBits_zero_f32

/-- The second pre-activation. -/
theorem v13_row (x0 : Arr S8192x1024) (x2 : Arr S4096x1024) (x3 : Arr S4096) (x4 : Arr S4096x4096) (x5 : Arr S4096)
    (r : Fin 8192) (j : Fin 4096) :
    val_main_v13 (F := Ideal) x0 x2 x3 x4 x5 (ix2 r j) = pre2 x2 x3 x4 x5 (rowOf x0 r) j := by
  rw [val_main_v13_apply, val_main_v10_apply, val_main_v12_apply, val_main_v11_apply, bidx_v12]
  unfold pre2
  refine congrArg (· + x5 (ix1 j)) (Finset.sum_congr rfl fun k _ => ?_)
  rw [val_main_v9_apply, lidx_v10, ridx_v10, v5_row]

/-- The rectified second layer. -/
theorem v14_row (x0 : Arr S8192x1024) (x2 : Arr S4096x1024) (x3 : Arr S4096) (x4 : Arr S4096x4096) (x5 : Arr S4096)
    (r : Fin 8192) (j : Fin 4096) :
    val_main_v14 (F := Ideal) x0 x2 x3 x4 x5 (ix2 r j) = act2 x2 x3 x4 x5 (rowOf x0 r) j := by
  rw [val_main_v14_apply, val_main_call1_v0_apply, val_main_call1_cst_apply, v13_row]
  exact (congrArg (max _) Ideal.ofBits_zero_f32).trans (max_zero_eq_select _)

/-- The second gate. -/
theorem v16_row (x0 : Arr S8192x1024) (x2 : Arr S4096x1024) (x3 : Arr S4096) (x4 : Arr S4096x4096) (x5 : Arr S4096)
    (r : Fin 8192) (j : Fin 4096) :
    val_main_v16 (F := Ideal) x0 x2 x3 x4 x5 (ix2 r j) = gate (pre2 x2 x3 x4 x5 (rowOf x0 r) j) := by
  rw [val_main_v16_apply, val_main_v15_apply, val_main_cst_1_apply, v13_row]
  exact congrArg (Ideal.cmp .ogt _) Ideal.ofBits_zero_f32

/-- The residual branch. -/
theorem v22_row (x0 : Arr S8192x1024) (x2 : Arr S4096x1024) (x3 : Arr S4096) (x4 : Arr S4096x4096) (x5 : Arr S4096)
    (x6 : Arr S1024x4096) (x7 : Arr S1024) (r : Fin 8192) (i : Fin 1024) :
    val_main_v22 (F := Ideal) x0 x2 x3 x4 x5 x6 x7 (ix2 r i) = resid x2 x3 x4 x5 x6 x7 (rowOf x0 r) i := by
  rw [val_main_v22_apply, val_main_v19_apply, val_main_v21_apply, val_main_v20_apply, bidx_v21]
  unfold resid
  refine congrArg (· + x7 (ix1 i)) (Finset.sum_congr rfl fun k _ => ?_)
  rw [val_main_v18_apply, lidx_v19, ridx_v19, v14_row]

/-- The first result is the layer's output, row by row. -/
theorem out_eq (x0 : (⟨S8192x1024, .f32⟩ : BufTy).Contents (Elt Ideal)) (x2 : (⟨S4096x1024, .f32⟩ : BufTy).Contents (Elt Ideal))
    (x3 : (⟨S4096, .f32⟩ : BufTy).Contents (Elt Ideal)) (x4 : (⟨S4096x4096, .f32⟩ : BufTy).Contents (Elt Ideal))
    (x5 : (⟨S4096, .f32⟩ : BufTy).Contents (Elt Ideal)) (x6 : (⟨S1024x4096, .f32⟩ : BufTy).Contents (Elt Ideal))
    (x7 : (⟨S1024, .f32⟩ : BufTy).Contents (Elt Ideal)) :
    val_main_v23 (F := Ideal) x0 x2 x3 x4 x5 x6 x7 = Cert.Residual.outArr x2 x3 x4 x5 x6 x7 x0 := by
  funext i
  obtain ⟨r, q, rfl⟩ : ∃ (r : Fin 8192) (q : Fin 1024), i = ix2 r q := ⟨i 0, i 1, eq_ix2 i⟩
  rw [val_main_v23_apply, v22_row]
  rfl
/-! ## One transposed-Jacobian product on whole arrays

  The three products of the backward sweep all contract the second axis of both operands; read at (r, j)
  each is the sum over k of the left operand at (r, k) times the right operand at (j, k). -/

/-- The covector against the transposed third weight. -/
theorem dotW3_apply (a : Arr S8192x1024) (b : Arr S4096x1024) (r : Fin 8192) (j : Fin 4096) :
    Host.dotGeneral (F := Ideal) (φ₁ := .f32) (φ₂ := .f32) dot_S8192x1024_S4096x1024_S8192x4096_1_1_0_0_n_n none a b (ix2 r j)
      = ∑ k : Fin 1024, a (ix2 r k) * b (ix2 j k) := by
  simp only [Host.dotGeneral]
  rw [Ideal.dotGeneral_apply,
    ← Equiv.sum_comp (ValueIdx.contrEquiv1 dot_S8192x1024_S4096x1024_S8192x4096_1_1_0_0_n_n 1024 rfl rfl).symm]
  refine Finset.sum_congr rfl fun k _ => ?_
  have hk := ValueIdx.contrEquiv1_symm_val dot_S8192x1024_S4096x1024_S8192x4096_1_1_0_0_n_n 1024 rfl rfl k
  have el : dot_S8192x1024_S4096x1024_S8192x4096_1_1_0_0_n_n.lhsIdx (ix2 r j)
      ((ValueIdx.contrEquiv1 dot_S8192x1024_S4096x1024_S8192x4096_1_1_0_0_n_n 1024 rfl rfl).symm k) = ix2 r k :=
    funext fun c => Fin.ext (by
      match c with
      | ⟨0, _⟩ => exact lhs_main_v25_0 _ _
      | ⟨1, _⟩ => exact (lhs_main_v25_1 _ _).trans hk)
  have er : dot_S8192x1024_S4096x1024_S8192x4096_1_1_0_0_n_n.rhsIdx (ix2 r j)
      ((ValueIdx.contrEquiv1 dot_S8192x1024_S4096x1024_S8192x4096_1_1_0_0_n_n 1024 rfl rfl).symm k) = ix2 j k :=
    funext fun c => Fin.ext (by
      match c with
      | ⟨0, _⟩ => exact rhs_main_v25_0 _ _
      | ⟨1, _⟩ => exact (rhs_main_v25_1 _ _).trans hk)
  rw [el, er]

/-- The gated product against the transposed second weight. -/
theorem dotW2_apply (a : Arr S8192x4096) (b : Arr S4096x4096) (r : Fin 8192) (j : Fin 4096) :
    Host.dotGeneral (F := Ideal) (φ₁ := .f32) (φ₂ := .f32) dot_S8192x4096_S4096x4096_S8192x4096_1_1_0_0_n_n none a b (ix2 r j)
      = ∑ k : Fin 4096, a (ix2 r k) * b (ix2 j k) := by
  simp only [Host.dotGeneral]
  rw [Ideal.dotGeneral_apply,
    ← Equiv.sum_comp (ValueIdx.contrEquiv1 dot_S8192x4096_S4096x4096_S8192x4096_1_1_0_0_n_n 4096 rfl rfl).symm]
  refine Finset.sum_congr rfl fun k _ => ?_
  have hk := ValueIdx.contrEquiv1_symm_val dot_S8192x4096_S4096x4096_S8192x4096_1_1_0_0_n_n 4096 rfl rfl k
  have el : dot_S8192x4096_S4096x4096_S8192x4096_1_1_0_0_n_n.lhsIdx (ix2 r j)
      ((ValueIdx.contrEquiv1 dot_S8192x4096_S4096x4096_S8192x4096_1_1_0_0_n_n 4096 rfl rfl).symm k) = ix2 r k :=
    funext fun c => Fin.ext (by
      match c with
      | ⟨0, _⟩ => exact lhs_main_v28_0 _ _
      | ⟨1, _⟩ => exact (lhs_main_v28_1 _ _).trans hk)
  have er : dot_S8192x4096_S4096x4096_S8192x4096_1_1_0_0_n_n.rhsIdx (ix2 r j)
      ((ValueIdx.contrEquiv1 dot_S8192x4096_S4096x4096_S8192x4096_1_1_0_0_n_n 4096 rfl rfl).symm k) = ix2 j k :=
    funext fun c => Fin.ext (by
      match c with
      | ⟨0, _⟩ => exact rhs_main_v28_0 _ _
      | ⟨1, _⟩ => exact (rhs_main_v28_1 _ _).trans hk)
  rw [el, er]

/-- The gated product against the transposed first weight. -/
theorem dotW1_apply (a : Arr S8192x4096) (b : Arr S1024x4096) (r : Fin 8192) (i : Fin 1024) :
    Host.dotGeneral (F := Ideal) (φ₁ := .f32) (φ₂ := .f32) dot_S8192x4096_S1024x4096_S8192x1024_1_1_0_0_n_n none a b (ix2 r i)
      = ∑ k : Fin 4096, a (ix2 r k) * b (ix2 i k) := by
  simp only [Host.dotGeneral]
  rw [Ideal.dotGeneral_apply,
    ← Equiv.sum_comp (ValueIdx.contrEquiv1 dot_S8192x4096_S1024x4096_S8192x1024_1_1_0_0_n_n 4096 rfl rfl).symm]
  refine Finset.sum_congr rfl fun k _ => ?_
  have hk := ValueIdx.contrEquiv1_symm_val dot_S8192x4096_S1024x4096_S8192x1024_1_1_0_0_n_n 4096 rfl rfl k
  have el : dot_S8192x4096_S1024x4096_S8192x1024_1_1_0_0_n_n.lhsIdx (ix2 r i)
      ((ValueIdx.contrEquiv1 dot_S8192x4096_S1024x4096_S8192x1024_1_1_0_0_n_n 4096 rfl rfl).symm k) = ix2 r k :=
    funext fun c => Fin.ext (by
      match c with
      | ⟨0, _⟩ => exact lhs_main_v31_0 _ _
      | ⟨1, _⟩ => exact (lhs_main_v31_1 _ _).trans hk)
  have er : dot_S8192x4096_S1024x4096_S8192x1024_1_1_0_0_n_n.rhsIdx (ix2 r i)
      ((ValueIdx.contrEquiv1 dot_S8192x4096_S1024x4096_S8192x1024_1_1_0_0_n_n 4096 rfl rfl).symm k) = ix2 i k :=
    funext fun c => Fin.ext (by
      match c with
      | ⟨0, _⟩ => exact rhs_main_v31_0 _ _
      | ⟨1, _⟩ => exact (rhs_main_v31_1 _ _).trans hk)
  rw [el, er]

/-- The all-zero array the gated selections fall back to. -/
def zeros : Arr S8192x4096 :=
  broadcastInDim S8192x4096 ![] bcast_S_S8192x4096 (constant (F := Ideal) S_ .f32 0x00000000#32)

theorem zeros_apply (i : S8192x4096.Idx) : zeros i = 0 := by
  unfold zeros
  exact (broadcastInDim_apply _ bcast_S_S8192x4096 (constant (F := Ideal) S_ .f32 0x00000000#32) i
    (fun a => a.elim0) (fun a => a.elim0)).trans Ideal.ofBits_zero_f32

/-- One transposed-Jacobian product on whole arrays, as the reference applies it: the covector array `v` against
    the transposed third weight `t3`, gated by `m2`, against the transposed second weight `t2`, gated by `m1`,
    against the transposed first weight `t1`. -/
def pullArr (m1 m2 : IVec S8192x4096 1) (t1 : Arr S1024x4096) (t2 : Arr S4096x4096) (t3 : Arr S4096x1024)
    (v : Arr S8192x1024) : Arr S8192x1024 :=
  Host.dotGeneral (F := Ideal) (φ₁ := .f32) (φ₂ := .f32) dot_S8192x4096_S1024x4096_S8192x1024_1_1_0_0_n_n none
    (select m1
      (Host.dotGeneral (F := Ideal) (φ₁ := .f32) (φ₂ := .f32) dot_S8192x4096_S4096x4096_S8192x4096_1_1_0_0_n_n none
        (select m2
          (Host.dotGeneral (F := Ideal) (φ₁ := .f32) (φ₂ := .f32) dot_S8192x1024_S4096x1024_S8192x4096_1_1_0_0_n_n none v t3)
          zeros)
        t2)
      zeros)
    t1

theorem pullArr_apply (m1 m2 : IVec S8192x4096 1) (t1 : Arr S1024x4096) (t2 : Arr S4096x4096) (t3 : Arr S4096x1024)
    (v : Arr S8192x1024) (r : Fin 8192) (i : Fin 1024) :
    pullArr m1 m2 t1 t2 t3 v (ix2 r i)
      = ∑ j : Fin 4096,
          Scalar.select (m1 (ix2 r j))
            (∑ k : Fin 4096, Scalar.select (m2 (ix2 r k)) (∑ l : Fin 1024, v (ix2 r l) * t3 (ix2 k l)) 0 * t2 (ix2 j k)) 0
            * t1 (ix2 i j) := by
  unfold pullArr
  rw [dotW1_apply]
  refine Finset.sum_congr rfl fun j _ => ?_
  rw [select_apply, zeros_apply, dotW2_apply]
  refine congrArg (fun z => Scalar.select (m1 (ix2 r j)) z 0 * t1 (ix2 i j)) (Finset.sum_congr rfl fun k _ => ?_)
  rw [select_apply, zeros_apply, dotW3_apply]

/-! ## One term of the series on whole arrays -/

/-- The row sum from zero of an array, read at row r. -/
theorem rowSum_apply (y : Arr S8192x1024) (r : Fin 8192) :
    Host.reduceAdd (F := Ideal) y (constant (F := Ideal) S_ .f32 0x00000000#32) reducesTo_S8192x1024_S8192_d1 h_S_ (ix1 r)
      = ∑ k : Fin 1024, y (ix2 r k) := by
  simp only [Host.reduceAdd, Ideal.hostReduceAdd_def]
  rw [Ideal.hostReduceAdd_single reducesTo_S8192x1024_S8192_d1 (by decide)]
  refine (congrArg₂ (· + ·) Ideal.ofBits_zero_f32 (Finset.sum_congr rfl fun k _ => ?_)).trans (zero_add _)
  exact congrArg y (funext fun a => Fin.ext (by match a with | ⟨0, _⟩ => rfl | ⟨1, _⟩ => rfl))

/-- One term of the series on whole arrays: the row sums of the products `p · u`, times the coefficient word `c`,
    added to the partial sums `acc`. -/
def termArr (c : BitVec 32) (u p : Arr S8192x1024) (acc : Arr S8192x1) : Arr S8192x1 :=
  addf acc
    (mulf (broadcastInDim S8192x1 ![] bcast_S_S8192x1 (constant (F := Ideal) S_ .f32 c))
      (broadcastInDim S8192x1 ![0] bcast_S8192_S8192x1_0
        (Host.reduceAdd (F := Ideal) (mulf p u) (constant (F := Ideal) S_ .f32 0x00000000#32)
          reducesTo_S8192x1024_S8192_d1 h_S_)))

theorem termArr_apply (c : BitVec 32) (u p : Arr S8192x1024) (acc : Arr S8192x1) (r : Fin 8192) :
    termArr c u p acc (ix2 r 0)
      = acc (ix2 r 0) + Ideal.ofBits .f32 c * ∑ i : Fin 1024, p (ix2 r i) * u (ix2 r i) := by
  unfold termArr
  rw [addf_apply, mulf_apply]
  have hc : broadcastInDim S8192x1 ![] bcast_S_S8192x1 (constant (F := Ideal) S_ .f32 c) (ix2 r 0)
      = Ideal.ofBits .f32 c :=
    broadcastInDim_apply _ bcast_S_S8192x1 (constant (F := Ideal) S_ .f32 c) (ix2 r 0) (fun a => a.elim0)
      (fun a => a.elim0)
  have hs : ∀ y : FVec Ideal S8192 .f32,
      broadcastInDim S8192x1 ![0] bcast_S8192_S8192x1_0 y (ix2 r 0) = y (ix1 r) := fun y =>
    broadcastInDim_apply _ bcast_S8192_S8192x1_0 y (ix2 r 0) (ix1 r) (fun a => match a with
      | ⟨0, _⟩ => by show r.val = if (8192 : Nat) = 1 then 0 else r.val; rw [if_neg (by decide)])
  rw [hc, hs, rowSum_apply]
  rfl

/-! ## The series on whole arrays, and its rows -/

/-- The series on whole arrays, accumulated term by term as the reference does: each coefficient word pulls the
    covector array back once more and adds its term to the partial sums. -/
def seriesArr (m1 m2 : IVec S8192x4096 1) (t1 : Arr S1024x4096) (t2 : Arr S4096x4096) (t3 : Arr S4096x1024)
    (u : Arr S8192x1024) : List (BitVec 32) → Arr S8192x1024 → Arr S8192x1 → Arr S8192x1
  | [], _, acc => acc
  | c :: cs, v, acc =>
      seriesArr m1 m2 t1 t2 t3 u cs (pullArr m1 m2 t1 t2 t3 v) (termArr c u (pullArr m1 m2 t1 t2 t3 v) acc)

section Rows

variable (W1 : (⟨2, ![4096, 1024]⟩ : Shape).Idx → EReal) (W2 : (⟨2, ![4096, 4096]⟩ : Shape).Idx → EReal)
  (W3 : (⟨2, ![1024, 4096]⟩ : Shape).Idx → EReal)
  (m1 m2 : IVec S8192x4096 1) (t1 : Arr S1024x4096) (t2 : Arr S4096x4096) (t3 : Arr S4096x1024)
  (g1 g2 : Fin 4096 → BitVec 1) (r : Fin 8192)
  (h1 : ∀ j : Fin 4096, m1 (ix2 r j) = g1 j) (h2 : ∀ k : Fin 4096, m2 (ix2 r k) = g2 k)
  (ht1 : ∀ (i : Fin 1024) (j : Fin 4096), t1 (ix2 i j) = W1 (ix2 j i))
  (ht2 : ∀ (j k : Fin 4096), t2 (ix2 j k) = W2 (ix2 k j))
  (ht3 : ∀ (k : Fin 4096) (l : Fin 1024), t3 (ix2 k l) = W3 (ix2 l k))

include h1 h2 ht1 ht2 ht3

/-- Row r of the pulled-back array is the pull-back of row r: the gates of row r are the row's gates, and the
    transposed weights read back as the weights. -/
theorem pullArr_row (v : Arr S8192x1024) (i : Fin 1024) :
    pullArr m1 m2 t1 t2 t3 v (ix2 r i) = pull W1 W2 W3 g1 g2 (rowOf v r) i := by
  rw [pullArr_apply]
  unfold pull rowOf
  simp only [h1, h2, ht1, ht2, ht3]

/-- Row r of the whole-array series is the series of row r, for any coefficient list, covector array and partial
    sums: induction on the list. -/
theorem seriesArr_row (u : Arr S8192x1024) :
    ∀ (cs : List (BitVec 32)) (v : Arr S8192x1024) (acc : Arr S8192x1),
      seriesArr m1 m2 t1 t2 t3 u cs v acc (ix2 r 0)
        = series W1 W2 W3 g1 g2 (rowOf u r) cs (rowOf v r) (acc (ix2 r 0)) := by
  intro cs
  induction cs with
  | nil => intro v acc; rfl
  | cons c cs ih =>
    intro v acc
    have hp : rowOf (pullArr m1 m2 t1 t2 t3 v) r = pull W1 W2 W3 g1 g2 (rowOf v r) :=
      funext fun i => pullArr_row W1 W2 W3 m1 m2 t1 t2 t3 g1 g2 r h1 h2 ht1 ht2 ht3 v i
    show seriesArr m1 m2 t1 t2 t3 u cs (pullArr m1 m2 t1 t2 t3 v) (termArr c u (pullArr m1 m2 t1 t2 t3 v) acc) (ix2 r 0)
      = series W1 W2 W3 g1 g2 (rowOf u r) cs (pull W1 W2 W3 g1 g2 (rowOf v r))
          (acc (ix2 r 0) + Ideal.ofBits .f32 c * ∑ i : Fin 1024, pull W1 W2 W3 g1 g2 (rowOf v r) i * rowOf u r i)
    rw [ih, termArr_apply, hp]
    refine congrArg (series W1 W2 W3 g1 g2 (rowOf u r) cs (pull W1 W2 W3 g1 g2 (rowOf v r))) ?_
    refine congrArg (fun z => acc (ix2 r 0) + Ideal.ofBits .f32 c * z) (Finset.sum_congr rfl fun i _ => ?_)
    exact congrArg (· * u (ix2 r i)) (pullArr_row W1 W2 W3 m1 m2 t1 t2 t3 g1 g2 r h1 h2 ht1 ht2 ht3 v i)

end Rows

/-! ## The reference's second result -/

/-- The reference's partial sums after the tenth term are the whole-array series at the ten coefficient words,
    started from the probe array and the zero column: the program's text, name by name. -/
theorem v154_eq_seriesArr (x0 x1 : Arr S8192x1024) (x2 : Arr S4096x1024) (x3 : Arr S4096) (x4 : Arr S4096x4096)
    (x5 : Arr S4096) (x6 : Arr S1024x4096) :
    val_main_v154 (F := Ideal) x0 x1 x2 x3 x4 x5 x6
      = seriesArr (val_main_v7 (F := Ideal) x0 x2 x3) (val_main_v16 (F := Ideal) x0 x2 x3 x4 x5)
          (val_main_v0 (F := Ideal) x2) (val_main_v9 (F := Ideal) x4) (val_main_v18 (F := Ideal) x6) x1
          coeffs x1 (val_main_v24 (F := Ideal)) := rfl

/-- The second result is the log-determinant estimate, row by row. -/
theorem logdet_eq (x0 x1 : (⟨S8192x1024, .f32⟩ : BufTy).Contents (Elt Ideal)) (x2 : (⟨S4096x1024, .f32⟩ : BufTy).Contents (Elt Ideal))
    (x3 : (⟨S4096, .f32⟩ : BufTy).Contents (Elt Ideal)) (x4 : (⟨S4096x4096, .f32⟩ : BufTy).Contents (Elt Ideal))
    (x5 : (⟨S4096, .f32⟩ : BufTy).Contents (Elt Ideal)) (x6 : (⟨S1024x4096, .f32⟩ : BufTy).Contents (Elt Ideal)) :
    val_main_v155 (F := Ideal) x0 x1 x2 x3 x4 x5 x6 = Cert.Residual.logdetArr x2 x3 x4 x5 x6 x0 x1 := by
  funext i
  obtain ⟨r, a, b, rfl⟩ : ∃ (r : Fin 8192) (a b : Fin 1), i = ix3 r a b := ⟨i 0, i 1, i 2, eq_ix3 i⟩
  obtain rfl : a = 0 := Subsingleton.elim _ _
  obtain rfl : b = 0 := Subsingleton.elim _ _
  have hidx : idx_main_v155 (ix3 r (0 : Fin 1) (0 : Fin 1)) = ix2 r 0 :=
    funext fun c => Fin.ext (by
      match c with
      | ⟨0, _⟩ => show ((r.val * 1 + 0) * 1 + 0) / 1 = r.val; omega
      | ⟨1, _⟩ => rfl)
  have hacc : val_main_v24 (F := Ideal) (ix2 r 0) = 0 := by
    rw [val_main_v24_apply, val_main_cst_3_apply]; exact Ideal.ofBits_zero_f32
  rw [val_main_v155_apply, hidx, v154_eq_seriesArr,
    seriesArr_row x2 x4 x6 _ _ _ _ _ (fun j => gate (pre1 x2 x3 (rowOf x0 r) j))
      (fun k => gate (pre2 x2 x3 x4 x5 (rowOf x0 r) k)) r
      (fun j => v7_row x0 x2 x3 r j) (fun k => v16_row x0 x2 x3 x4 x5 r k)
      (fun i j => (val_main_v0_apply x2 (ix2 i j)).trans (congrArg x2
        (funext fun c => match c with | ⟨0, _⟩ => rfl | ⟨1, _⟩ => rfl)))
      (fun j k => (val_main_v9_apply x4 (ix2 j k)).trans (congrArg x4
        (funext fun c => match c with | ⟨0, _⟩ => rfl | ⟨1, _⟩ => rfl)))
      (fun k l => (val_main_v18_apply x6 (ix2 k l)).trans (congrArg x6
        (funext fun c => match c with | ⟨0, _⟩ => rfl | ⟨1, _⟩ => rfl))),
    hacc]
  rfl

end Cert.ReferenceIdeal.Rows

end
-- ==== Proof.lean ====
/-
  A residual layer with its log-determinant estimate: the tiled kernel against the whole-array reference.

  Both programs take rows `x`, probe rows `u`, and three affine layers (W1, b1), (W2, b2), (W3, b3). The first
  result is `x + g(x)`, where `g` passes a row through the three layers with a rectifier after the first two. The
  second is, per row, the ten-term alternating power series Σ (-1)ⁿ/(n+1) · ⟨(Jᵀ)ⁿ⁺¹ u, u⟩ for log det(I + J), `J`
  the Jacobian of `g` at the row: each factor Jᵀ is three matrix products gated by the two rectifiers' masks.

  The kernel walks the batch in 64 blocks of 128 rows with the weights resident in scratch (copied in at the first
  block of each half of the grid, and provably unchanged afterwards); the reference works on whole arrays and gets
  Jᵀ from reverse-mode differentiation, which prints as the transposed weights contracted the other way round. On
  the extended reals the narrowing of the weights and activations to bf16 is the identity, a product into a zero
  accumulator and a host contraction are the same finite sum, and `max z 0` is `z` gated by `z > 0`. So, row by
  row, both programs compute ONE function (Proof/Spec.lean): the kernel's block payloads read at a row
  (Proof/KernelRows.lean), the blocks assembled into the arrays (Proof/KernelPieces.lean, KernelPoints.lean,
  KernelArrays.lean, KernelRun.lean), and the reference's stages read at a row (Proof/RefRows.lean). No step moves
  a factor across a sum, so the finiteness of the inputs is never used.

  The three frames are the generated ones (the reference's is its generated run with the results dropped), and the
  idealized kernel is the kernel's own text read on the extended reals: nothing was rewritten, so there is nothing
  to preserve.
-/
import proofs.«115191_j35158602285651_1_alg».proof.Defs
import proofs.«115191_j35158602285651_1_alg».proof.Proof.Gen.Kernel
import proofs.«115191_j35158602285651_1_alg».proof.Proof.Gen.Kernel.Skeleton
import proofs.«115191_j35158602285651_1_alg».proof.Proof.Gen.Kernel.Launch
import proofs.«115191_j35158602285651_1_alg».proof.Proof.Gen.Kernel.Points
import proofs.«115191_j35158602285651_1_alg».proof.Proof.Gen.Kernel.Frame
import proofs.«115191_j35158602285651_1_alg».proof.Proof.Gen.KernelIdeal
import proofs.«115191_j35158602285651_1_alg».proof.Proof.Gen.KernelIdeal.Skeleton
import proofs.«115191_j35158602285651_1_alg».proof.Proof.Gen.KernelIdeal.Launch
import proofs.«115191_j35158602285651_1_alg».proof.Proof.Gen.KernelIdeal.Points
import proofs.«115191_j35158602285651_1_alg».proof.Proof.Gen.KernelIdeal.Frame
import proofs.«115191_j35158602285651_1_alg».proof.Proof.Gen.ReferenceIdeal
import proofs.«115191_j35158602285651_1_alg».proof.Proof.Gen.Pre_finite_inputs
import proofs.«115191_j35158602285651_1_alg».proof.Proof.Gen.ReferenceIdeal.Run
import proofs.«115191_j35158602285651_1_alg».proof.Proof.Gen.ReferenceIdeal.Read
import proofs.«115191_j35158602285651_1_alg».proof.Proof.KernelRun
import proofs.«115191_j35158602285651_1_alg».proof.Proof.RefRows
import Idealize.ShloMosaic.Adequacy
import Idealize.ShloMosaic.Init

noncomputable section

namespace Cert.Proof

open Idealize.ShloMosaic Idealize.SL.Sem

/-- The kernel's frame, at the word level: generated. -/
theorem frame_kernel : Cert.frame_Kernel := fun m ρ _ => Cert.Kernel.Gen.frame m ρ

/-- The idealized kernel's frame: generated. -/
theorem frame_kernelIdeal : Cert.frame_KernelIdeal := fun m ρ _ => Cert.KernelIdeal.Gen.frame m ρ

/-- The reference's frame: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with both results at the row-by-row specification of the
    arguments: the kernel by its run read as values, the reference by its stages read at a row. -/
theorem algebraic : Cert.algebraic_KernelIdeal_ReferenceIdeal := by
  intro m ρ m' ρ' _ hagree
  refine ⟨fun c => Cert.Residual.outArr (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg0)),
    fun c => Cert.Residual.logdetArr (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨?_, ?_, (h c).2.2⟩
  · rw [(h c).1, Cert.ReferenceIdeal.Read.val_main_v23_eq, Cert.ReferenceIdeal.Rows.out_eq, a0, a2, a3, a4, a5, a6, a7]
  · rw [(h c).2.1, Cert.ReferenceIdeal.Read.val_main_v155_eq, Cert.ReferenceIdeal.Rows.logdet_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
